-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S200000 : Shape := ⟨1, ![200000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_
  bcast_S_S200000 : S_.BroadcastsInDim S200000 (![] : Fin 0 → Fin S200000.rank)
  reducesTo_S200000_S_d0 : S200000.ReducesTo [0] S_

variable [Facts]

def fn_part2 {F : FTy → Type} [FloatOps F] (main_arg3 : IVec S200000 32) (main_arg4 : IVec S200000 32) (main_v31 : IVec S_ 1) (main_v32 : IVec S200000 32) : IVec S_ 1 :=
  let main_v33 : IVec S200000 1 := cmpi .sge main_arg3 main_v32
  let main_c_13 : IVec S_ 1 := constantI S_ 1 1#1
  let main_v34 : IVec S_ 1 := (fun x v => Host.reduce IntOp.andi x v reducesTo_S200000_S_d0 h_S_) main_v33 main_c_13
  let main_v35 : IVec S_ 1 := andi main_v31 main_v34
  let main_c_14 : IVec S_ 32 := constantI S_ 32 50000#32
  let main_v36 : IVec S200000 32 := broadcastInDim S200000 ![] bcast_S_S200000 main_c_14
  let main_v37 : IVec S200000 1 := cmpi .slt main_arg3 main_v36
  let main_c_15 : IVec S_ 1 := constantI S_ 1 1#1
  let main_v38 : IVec S_ 1 := (fun x v => Host.reduce IntOp.andi x v reducesTo_S200000_S_d0 h_S_) main_v37 main_c_15
  let main_v39 : IVec S_ 1 := andi main_v35 main_v38
  let main_c_16 : IVec S_ 32 := constantI S_ 32 4294917296#32
  let main_v40 : IVec S200000 32 := broadcastInDim S200000 ![] bcast_S_S200000 main_c_16
  let main_v41 : IVec S200000 1 := cmpi .sge main_arg4 main_v40
  let main_c_17 : IVec S_ 1 := constantI S_ 1 1#1
  let main_v42 : IVec S_ 1 := (fun x v => Host.reduce IntOp.andi x v reducesTo_S200000_S_d0 h_S_) main_v41 main_c_17
  let main_v43 : IVec S_ 1 := andi main_v39 main_v42
  let main_c_18 : IVec S_ 32 := constantI S_ 32 50000#32
  let main_v44 : IVec S200000 32 := broadcastInDim S200000 ![] bcast_S_S200000 main_c_18
  let main_v45 : IVec S200000 1 := cmpi .slt main_arg4 main_v44
  let main_c_19 : IVec S_ 1 := constantI S_ 1 1#1
  let main_v46 : IVec S_ 1 := (fun x v => Host.reduce IntOp.andi x v reducesTo_S200000_S_d0 h_S_) main_v45 main_c_19
  let main_v47 : IVec S_ 1 := andi main_v43 main_v46
  main_v47

def fn_part1 {F : FTy → Type} [FloatOps F] (main_arg1 : IVec S800000 32) (main_arg3 : IVec S200000 32) (main_arg4 : IVec S200000 32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 4294917296#32
  let main_v24 : IVec S800000 32 := broadcastInDim S800000 ![] bcast_S_S800000 main_c_8
  let main_v25 : IVec S800000 1 := cmpi .sge main_arg1 main_v24
  let main_c_9 : IVec S_ 1 := constantI S_ 1 1#1
  let main_v26 : IVec S_ 1 := (fun x v => Host.reduce IntOp.andi x v reducesTo_S800000_S_d0 h_S_) main_v25 main_c_9
  let main_v27 : IVec S_ 1 := andi main_v23 main_v26
  let main_c_10 : IVec S_ 32 := constantI S_ 32 50000#32
  let main_v28 : IVec S800000 32 := broadcastInDim S800000 ![] bcast_S_S800000 main_c_10
  let main_v29 : IVec S800000 1 := cmpi .slt main_arg1 main_v28
  let main_c_11 : IVec S_ 1 := constantI S_ 1 1#1
  let main_v30 : IVec S_ 1 := (fun x v => Host.reduce IntOp.andi x v reducesTo_S800000_S_d0 h_S_) main_v29 main_c_11
  let main_v31 : IVec S_ 1 := andi main_v27 main_v30
  let main_c_12 : IVec S_ 32 := constantI S_ 32 4294917296#32
  let main_v32 : IVec S200000 32 := broadcastInDim S200000 ![] bcast_S_S200000 main_c_12
  fn_part2 (F := F) main_arg3 main_arg4 main_v31 main_v32

def fn {F : FTy → Type} [FloatOps F] (main_arg0 : FVec F S50000x128 .f32) (main_arg1 : IVec S800000 32) (main_arg2 : IVec S800000 32) (main_arg3 : IVec S200000 32) (main_arg4 : IVec S200000 32) (main_arg5 : FVec F S128x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg6
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg3 main_arg4 main_arg8 main_v13 main_v16
-- ==== Kernel.lean ====
abbrev S50000x128 : Shape := ⟨2, ![50000, 128]⟩
abbrev S800000 : Shape := ⟨1, ![800000]⟩
abbrev S200000 : Shape := ⟨1, ![200000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S200000x1 : Shape := ⟨2, ![200000, 1]⟩
abbrev S200000x128 : Shape := ⟨2, ![200000, 128]⟩

abbrev nBuf : Space → Nat
  | .hbm => 142
  | .vmem => 26
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S200000, .i32⟩
  | 4 => ⟨S200000, .i32⟩
  | 5 => ⟨S128x128, .f32⟩
  | 6 => ⟨S128, .f32⟩
  | 7 => ⟨S128x128, .f32⟩
  | 8 => ⟨S128, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S_, .f32⟩
  | 21 => ⟨S50000, .f32⟩
  | 22 => ⟨S50000, .f32⟩
  | 23 => ⟨S_, .f32⟩
  | 24 => ⟨S_, .f32⟩
  | 25 => ⟨S50000, .f32⟩
  | 26 => ⟨S50000, .f32⟩
  | 27 => ⟨S50000, .f32⟩
  | 28 => ⟨S50000x1, .f32⟩
  | 29 => ⟨S50000, .f32⟩
  | 30 => ⟨S50000x1, .f32⟩
  | 31 => ⟨S_, .f32⟩
  | 32 => ⟨S50000x1, .f32⟩
  | 33 => ⟨S50000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S1, .i32⟩
  | 43 => ⟨S_, .i32⟩
  | 44 => ⟨S800000x1, .i32⟩
  | 45 => ⟨S800000x1, .i1⟩
  | 46 => ⟨S1x1, .i32⟩
  | 47 => ⟨S800000x1, .i32⟩
  | 48 => ⟨S800000x1, .i1⟩
  | 49 => ⟨S800000x1, .i1⟩
  | 50 => ⟨S_, .i1⟩
  | 51 => ⟨S800000, .i1⟩
  | 52 => ⟨S800000x128, .f32⟩
  | 53 => ⟨S800000x128, .i1⟩
  | 54 => ⟨S_, .f32⟩
  | 55 => ⟨S800000x128, .f32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S1x128, .f32⟩
  | 62 => ⟨S50000x128, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S1, .i32⟩
  | 72 => ⟨S_, .i32⟩
  | 73 => ⟨S800000x1, .i32⟩
  | 74 => ⟨S800000x1, .i1⟩
  | 75 => ⟨S1x1, .i32⟩
  | 76 => ⟨S800000x1, .i32⟩
  | 77 => ⟨S800000x1, .i1⟩
  | 78 => ⟨S800000x1, .i1⟩
  | 79 => ⟨S_, .i1⟩
  | 80 => ⟨S800000, .i1⟩
  | 81 => ⟨S800000x128, .f32⟩
  | 82 => ⟨S800000x128, .i1⟩
  | 83 => ⟨S_, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S1x128, .f32⟩
  | 91 => ⟨S50000x128, .f32⟩
  | 92 => ⟨S_, .i32⟩
  | 93 => ⟨S200000, .i32⟩
  | 94 => ⟨S200000, .i1⟩
  | 95 => ⟨S_, .i32⟩
  | 96 => ⟨S200000, .i32⟩
  | 97 => ⟨S200000, .i32⟩
  | 98 => ⟨S200000, .i32⟩
  | 99 => ⟨S200000x1, .i32⟩
  | 100 => ⟨S1, .i32⟩
  | 101 => ⟨S_, .i32⟩
  | 102 => ⟨S200000x1, .i32⟩
  | 103 => ⟨S200000x1, .i1⟩
  | 104 => ⟨S1x1, .i32⟩
  | 105 => ⟨S200000x1, .i32⟩
  | 106 => ⟨S200000x1, .i1⟩
  | 107 => ⟨S200000x1, .i1⟩
  | 108 => ⟨S_, .i1⟩
  | 109 => ⟨S200000, .i1⟩
  | 110 => ⟨S200000x128, .f32⟩
  | 111 => ⟨S200000x128, .i1⟩
  | 112 => ⟨S_, .f32⟩
  | 113 => ⟨S200000x128, .f32⟩
  | 114 => ⟨S200000x128, .f32⟩
  | 115 => ⟨S_, .i32⟩
  | 116 => ⟨S200000, .i32⟩
  | 117 => ⟨S200000, .i1⟩
  | 118 => ⟨S_, .i32⟩
  | 119 => ⟨S200000, .i32⟩
  | 120 => ⟨S200000, .i32⟩
  | 121 => ⟨S200000, .i32⟩
  | 122 => ⟨S200000x1, .i32⟩
  | 123 => ⟨S1, .i32⟩
  | 124 => ⟨S_, .i32⟩
  | 125 => ⟨S200000x1, .i32⟩
  | 126 => ⟨S200000x1, .i1⟩
  | 127 => ⟨S1x1, .i32⟩
  | _ => ⟨S50000x128, .f32⟩

abbrev hbmTy0_1 (i : Nat) : BufTy := match i % 128 with
  | 0 => ⟨S200000x1, .i32⟩
  | 1 => ⟨S200000x1, .i1⟩
  | 2 => ⟨S200000x1, .i1⟩
  | 3 => ⟨S_, .i1⟩
  | 4 => ⟨S200000, .i1⟩
  | 5 => ⟨S200000x128, .f32⟩
  | 6 => ⟨S200000x128, .i1⟩
  | 7 => ⟨S_, .f32⟩
  | 8 => ⟨S200000x128, .f32⟩
  | 9 => ⟨S200000x128, .f32⟩
  | 10 => ⟨S200000x128, .f32⟩
  | 11 => ⟨S_, .f32⟩
  | 12 => ⟨S200000, .f32⟩
  | 13 => ⟨S200000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S1x128, .f32⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S1x128, .f32⟩
  | .local _ .vmem, ⟨22, _⟩ => ⟨S5000x1, .f32⟩
  | .local _ .vmem, ⟨23, _⟩ => ⟨S5000x1, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_4 : Ref sig .tc := ⟨.hbm, 31, rfl⟩
abbrev main_v13 : Ref sig .tc := ⟨.hbm, 32, rfl⟩
abbrev main_v14 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_c_1 : Ref sig .tc := ⟨.hbm, 42, rfl⟩
abbrev main_call2_c_2 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_3 : Ref sig .tc := ⟨.hbm, 50, rfl⟩
abbrev main_call2_v12 : Ref sig .tc := ⟨.hbm, 51, rfl⟩
abbrev main_call2_v13 : Ref sig .tc := ⟨.hbm, 52, rfl⟩
abbrev main_call2_v14 : Ref sig .tc := ⟨.hbm, 53, rfl⟩
abbrev main_call2_cst : Ref sig .tc := ⟨.hbm, 54, rfl⟩
abbrev main_call2_v15 : Ref sig .tc := ⟨.hbm, 55, rfl⟩
abbrev main_v15 : Ref sig .tc := ⟨.hbm, 56, rfl⟩
abbrev main_cst_5 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_v14 : Ref sig .tc := ⟨.hbm, 82, rfl⟩
abbrev main_call3_cst : Ref sig .tc := ⟨.hbm, 83, rfl⟩
abbrev main_call3_v15 : Ref sig .tc := ⟨.hbm, 84, rfl⟩
abbrev main_v21 : Ref sig .tc := ⟨.hbm, 85, rfl⟩
abbrev main_cst_6 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_call4_c : Ref sig .tc := ⟨.hbm, 92, rfl⟩
abbrev main_call4_v0 : Ref sig .tc := ⟨.hbm, 93, rfl⟩
abbrev main_call4_v1 : Ref sig .tc := ⟨.hbm, 94, rfl⟩
abbrev main_call4_c_0 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_c_1 : Ref sig .tc := ⟨.hbm, 100, rfl⟩
abbrev main_call4_c_2 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_c_3 : Ref sig .tc := ⟨.hbm, 108, rfl⟩
abbrev main_call4_v12 : Ref sig .tc := ⟨.hbm, 109, rfl⟩
abbrev main_call4_v13 : Ref sig .tc := ⟨.hbm, 110, rfl⟩
abbrev main_call4_v14 : Ref sig .tc := ⟨.hbm, 111, rfl⟩
abbrev main_call4_cst : Ref sig .tc := ⟨.hbm, 112, rfl⟩
abbrev main_call4_v15 : Ref sig .tc := ⟨.hbm, 113, rfl⟩
abbrev main_v27 : Ref sig .tc := ⟨.hbm, 114, rfl⟩
abbrev main_call5_c : Ref sig .tc := ⟨.hbm, 115, rfl⟩
abbrev main_call5_v0 : Ref sig .tc := ⟨.hbm, 116, rfl⟩
abbrev main_call5_v1 : Ref sig .tc := ⟨.hbm, 117, rfl⟩
abbrev main_call5_c_0 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_v5 : Ref sig .tc := ⟨.hbm, 122, rfl⟩
abbrev main_call5_c_1 : Ref sig .tc := ⟨.hbm, 123, rfl⟩
abbrev main_call5_c_2 : Ref sig .tc := ⟨.hbm, 124, rfl⟩
abbrev main_call5_v6 : Ref sig .tc := ⟨.hbm, 125, rfl⟩
abbrev main_call5_v7 : Ref sig .tc := ⟨.hbm, 126, rfl⟩
abbrev main_call5_v8 : Ref sig .tc := ⟨.hbm, 127, rfl⟩
abbrev main_call5_v9 : Ref sig .tc := ⟨.hbm, 128, rfl⟩
abbrev main_call5_v10 : Ref sig .tc := ⟨.hbm, 129, rfl⟩
abbrev main_call5_v11 : Ref sig .tc := ⟨.hbm, 130, rfl⟩
abbrev main_call5_c_3 : Ref sig .tc := ⟨.hbm, 131, rfl⟩
abbrev main_call5_v12 : Ref sig .tc := ⟨.hbm, 132, rfl⟩
abbrev main_call5_v13 : Ref sig .tc := ⟨.hbm, 133, rfl⟩
abbrev main_call5_v14 : Ref sig .tc := ⟨.hbm, 134, rfl⟩
abbrev main_call5_cst : Ref sig .tc := ⟨.hbm, 135, rfl⟩
abbrev main_call5_v15 : Ref sig .tc := ⟨.hbm, 136, rfl⟩
abbrev main_v28 : Ref sig .tc := ⟨.hbm, 137, rfl⟩
abbrev main_v29 : Ref sig .tc := ⟨.hbm, 138, rfl⟩
abbrev main_cst_7 : Ref sig .tc := ⟨.hbm, 139, rfl⟩
abbrev main_v30 : Ref sig .tc := ⟨.hbm, 140, rfl⟩
abbrev main_v31 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x1 : S_.BroadcastsInDim S50000x1 (![] : Fin 0 → Fin S50000x1.rank)
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x128_0 : S200000.BroadcastsInDim S200000x128 (![0] : Fin 1 → Fin S200000x128.rank)
  bcast_S_S200000x128 : S_.BroadcastsInDim S200000x128 (![] : Fin 0 → Fin S200000x128.rank)
  reducesTo_S200000x128_S200000_d1 : S200000x128.ReducesTo [1] S200000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  gather_S50000x128_S200000x1_S200000x128_1_0_n_n_0_1_1128_wf : GatherDims.WF S50000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S50000x1.size a
  hwx2_4 : ∀ i : grid2.Coords, EltTy.bits .f32 = 32 ∨ (Rect.block (s := S50000x1) S5000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v20) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v26) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S200000 : Shape := ⟨1, ![200000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S200000x1 : Shape := ⟨2, ![200000, 1]⟩
abbrev S200000x128 : Shape := ⟨2, ![200000, 128]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S200000, .i32⟩
  | .hbm, ⟨4, _⟩ => ⟨S200000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S_, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S50000, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | .hbm, ⟨101, _⟩ => ⟨S_, .i32⟩
  | .hbm, ⟨102, _⟩ => ⟨S200000, .i32⟩
  | .hbm, ⟨103, _⟩ => ⟨S200000, .i1⟩
  | .hbm, ⟨104, _⟩ => ⟨S_, .i32⟩
  | .hbm, ⟨105, _⟩ => ⟨S200000, .i32⟩
  | .hbm, ⟨106, _⟩ => ⟨S200000, .i32⟩
  | .hbm, ⟨107, _⟩ => ⟨S200000, .i32⟩
  | .hbm, ⟨108, _⟩ => ⟨S200000x1, .i32⟩
  | .hbm, ⟨109, _⟩ => ⟨S200000x128, .f32⟩
  | .hbm, ⟨110, _⟩ => ⟨S_, .i32⟩
  | .hbm, ⟨111, _⟩ => ⟨S200000, .i32⟩
  | .hbm, ⟨112, _⟩ => ⟨S200000, .i1⟩
  | .hbm, ⟨113, _⟩ => ⟨S_, .i32⟩
  | .hbm, ⟨114, _⟩ => ⟨S200000, .i32⟩
  | .hbm, ⟨115, _⟩ => ⟨S200000, .i32⟩
  | .hbm, ⟨116, _⟩ => ⟨S200000, .i32⟩
  | .hbm, ⟨117, _⟩ => ⟨S200000x1, .i32⟩
  | .hbm, ⟨118, _⟩ => ⟨S200000x128, .f32⟩
  | .hbm, ⟨119, _⟩ => ⟨S200000x128, .f32⟩
  | .hbm, ⟨120, _⟩ => ⟨S_, .f32⟩
  | .hbm, ⟨121, _⟩ => ⟨S200000, .f32⟩
  | .hbm, ⟨122, _⟩ => ⟨S200000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_9 : Ref sig .tc := ⟨.hbm, 65, rfl⟩
abbrev main_call3_v0 : Ref sig .tc := ⟨.hbm, 66, rfl⟩
abbrev main_call3_v1 : Ref sig .tc := ⟨.hbm, 67, rfl⟩
abbrev main_v39 : Ref sig .tc := ⟨.hbm, 68, rfl⟩
abbrev main_cst_10 : Ref sig .tc := ⟨.hbm, 69, rfl⟩
abbrev main_call4_v0 : Ref sig .tc := ⟨.hbm, 70, rfl⟩
abbrev main_call4_v1 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_11 : Ref sig .tc := ⟨.hbm, 77, rfl⟩
abbrev main_v45 : Ref sig .tc := ⟨.hbm, 78, rfl⟩
abbrev main_v46 : Ref sig .tc := ⟨.hbm, 79, rfl⟩
abbrev main_c_12 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_13 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_call5_cst : Ref sig .tc := ⟨.hbm, 98, rfl⟩
abbrev main_call5_v0 : Ref sig .tc := ⟨.hbm, 99, rfl⟩
abbrev main_v63 : Ref sig .tc := ⟨.hbm, 100, rfl⟩
abbrev main_c_14 : Ref sig .tc := ⟨.hbm, 101, rfl⟩
abbrev main_v64 : Ref sig .tc := ⟨.hbm, 102, rfl⟩
abbrev main_v65 : Ref sig .tc := ⟨.hbm, 103, rfl⟩
abbrev main_c_15 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_16 : Ref sig .tc := ⟨.hbm, 110, rfl⟩
abbrev main_v71 : Ref sig .tc := ⟨.hbm, 111, rfl⟩
abbrev main_v72 : Ref sig .tc := ⟨.hbm, 112, rfl⟩
abbrev main_c_17 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_18 : Ref sig .tc := ⟨.hbm, 120, rfl⟩
abbrev main_v79 : Ref sig .tc := ⟨.hbm, 121, rfl⟩
abbrev main_v80 : Ref sig .tc := ⟨.hbm, 122, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S200000 : S_.BroadcastsInDim S200000 (![] : Fin 0 → Fin S200000.rank)
  bcast_S200000_S200000x1_0 : S200000.BroadcastsInDim S200000x1 (![0] : Fin 1 → Fin S200000x1.rank)
  reducesTo_S200000x128_S200000_d1 : S200000x128.ReducesTo [1] S200000
  h_S_ : 0 < S_.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

class Facts : Prop extends Facts₀ where

variable [Facts]
-- ==== Proof.Spec.lean ====
/-
  The two dense stages of a graph-convolution layer, as functions of whole arrays read index by index
  over the extended reals.

  `rowScale x s`  : entry (r, q) is  x[r, q] * s[r, 0]  — a table scaled row by row by a column.
  `layer a sin w b sout` : entry (r, q) is
        max (sum over k of (a[r, k] * sin[r, 0]) * w[k, q]  +  b[0, q]) 0  *  sout[r, 0]
    — the aggregated features scaled row by row, multiplied by the weight matrix, shifted by the bias,
    clamped below at zero, and scaled row by row again.
-/
import proofs.«400488_j33122787786914_2_alg».proof.KernelIdeal
import Idealize.ShloMosaic.PureOps.Ideal
import Idealize.ShloMosaic.Lib.ValueIdx

noncomputable section

namespace Cert.Gcn

open Idealize.ShloMosaic Idealize.ShloMosaic.ValueIdx Cert.KernelIdeal

/-- The row of an index of a 50000 x 128 table, as a number below 50000. -/
abbrev rowOf (i : S50000x128.Idx) : Fin 50000 := ⟨(i 0).val, idx2_lt0 i⟩
/-- The column of an index of a 50000 x 128 table, as a number below 128. -/
abbrev colOf (i : S50000x128.Idx) : Fin 128 := ⟨(i 1).val, idx2_lt1 i⟩

/-- A table scaled row by row: entry (r, q) is x[r, q] * s[r, 0]. -/
def rowScale (x : FVec Ideal S50000x128 .f32) (s : FVec Ideal S50000x1 .f32) : FVec Ideal S50000x128 .f32 :=
  fun i => x i * s (ix2 (rowOf i) (0 : Fin 1))

/-- One dense stage: entry (r, q) is max (sum_k (a[r, k] * sin[r, 0]) * w[k, q] + b[0, q]) 0 * sout[r, 0]. -/
def layer (a : FVec Ideal S50000x128 .f32) (sin : FVec Ideal S50000x1 .f32) (w : FVec Ideal S128x128 .f32)
    (b : FVec Ideal S1x128 .f32) (sout : FVec Ideal S50000x1 .f32) : FVec Ideal S50000x128 .f32 :=
  fun i => max ((∑ k : Fin 128, (a (ix2 (rowOf i) k) * sin (ix2 (rowOf i) (0 : Fin 1))) * w (ix2 k (colOf i)))
      + b (ix2 (0 : Fin 1) (colOf i))) (Ideal.ofBits .f32 0x00000000#32) * sout (ix2 (rowOf i) (0 : Fin 1))

end Cert.Gcn

end
-- ==== Proof.KTerms.lean ====
/-
  The host-side stages of the kernel's program at the extended reals, each NAMED as the composition of the
  printed operations that compute it, so that the kernel's result is one readable expression.

  `degInv idx`      : per node, 1/sqrt of max(1, how many entries of `idx` name that node).
  `normIdx idx`     : Python's index normalisation, idx + 50000 where idx < 0, as a column of start indices.
  `takeFill h idx`  : rows of `h` at the normalised indices, a row replaced by the fill word where the
                      normalised index is outside [0, 49999].
  `segSum u dst`    : the rows of `u` summed into the rows `dst` names, from zero.
  `edgeScore h s d` : per scored pair, the sum over features of h[s] * h[d], as a column.
  `kernelValue`     : the whole pipeline: two dense stages around two gather / scatter-add rounds, then the scores.
-/
import proofs.«400488_j33122787786914_2_alg».proof.Proof.Gen.KernelIdeal
import proofs.«400488_j33122787786914_2_alg».proof.Proof.Spec

noncomputable section

namespace Cert.KernelIdeal.Terms

open Idealize.ShloMosaic Cert.KernelIdeal Cert.KernelIdeal.Gen Cert.Gcn

/-- Per node, 1/sqrt of the clipped count of entries of `idx` equal to that node. -/
def degInv (idx : IVec S800000 32) : FVec Ideal S50000 .f32 :=
  Host.rsqrt (maximumf (broadcastInDim S50000 ![] bcast_S_S50000 (id (constant S_ .f32 0x3F800000#32)))
    (Host.scatterAdd scatter_S50000_S800000x1_S800000_n_0_0_1
      (broadcastInDim S50000 ![] bcast_S_S50000 (constant S_ .f32 0x00000000#32))
      (broadcastInDim S800000x1 ![0] bcast_S800000_S800000x1_0 idx)
      (broadcastInDim S800000 ![] bcast_S_S800000 (constant S_ .f32 0x3F800000#32))))

/-- `degInv` laid out as a column. -/
def degCol (idx : IVec S800000 32) : FVec Ideal S50000x1 .f32 :=
  shapeCast S50000x1 (degInv idx) shapeCasts_S50000_S50000x1

/-- The column of ones. -/
def onesCol : FVec Ideal S50000x1 .f32 :=
  broadcastInDim S50000x1 ![] bcast_S_S50000x1 (constant S_ .f32 0x3F800000#32)

/-- A bias vector laid out as one row. -/
def biasRow (b : FVec Ideal S128 .f32) : FVec Ideal S1x128 .f32 :=
  shapeCast S1x128 b shapeCasts_S128_S1x128

/-- Python's index normalisation over the 800000 edges, as a column of start indices. -/
def normIdxE (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The same over the 200000 scored pairs. -/
def normIdxS (idx : IVec S200000 32) : IVec S200000x1 32 :=
  broadcastInDim S200000x1 ![0] bcast_S200000_S200000x1_0
    (select (cmpi .slt idx (broadcastInDim S200000 ![] bcast_S_S200000 (constantI S_ 32 0#32)))
      (addi idx (broadcastInDim S200000 ![] bcast_S_S200000 (constantI S_ 32 50000#32))) idx)

/-- Which edges have their normalised index inside [0, 49999]. -/
def inRangeE (idx : IVec S800000 32) : IVec S800000 1 :=
  Host.reduce IntOp.andi
    (andi (cmpi .sge (normIdxE idx) (broadcastInDim S800000x1 ![] bcast_S_S800000x1 (constantI S_ 32 0#32)))
      (cmpi .sle (normIdxE idx) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- Which scored pairs have their normalised index inside [0, 49999]. -/
def inRangeS (idx : IVec S200000 32) : IVec S200000 1 :=
  Host.reduce IntOp.andi
    (andi (cmpi .sge (normIdxS idx) (broadcastInDim S200000x1 ![] bcast_S_S200000x1 (constantI S_ 32 0#32)))
      (cmpi .sle (normIdxS idx) (broadcastInDim S200000x1 ![0, 1] bcast_S1x1_S200000x1_0_1
        (broadcastInDim S1x1 ![1] bcast_S1_S1x1_1 (constantI S1 32 49999#32)))))
    (constantI S_ 1 1#1) reducesTo_S200000x1_S200000_d1 h_S_

/-- Rows of `h` at the edges' normalised indices; the fill word where the index is out of range. -/
def takeFillE (h : FVec Ideal S50000x128 .f32) (idx : IVec S800000 32) : FVec Ideal S800000x128 .f32 :=
  select (broadcastInDim S800000x128 ![0] bcast_S800000_S800000x128_0 (inRangeE idx))
    (Host.gather gather_S50000x128_S800000x1_S800000x128_1_0_n_n_0_1_1128 h (normIdxE idx))
    (broadcastInDim S800000x128 ![] bcast_S_S800000x128 (constant S_ .f32 0x7FC00000#32))

/-- Rows of `h` at the scored pairs' normalised indices; the fill word where the index is out of range. -/
def takeFillS (h : FVec Ideal S50000x128 .f32) (idx : IVec S200000 32) : FVec Ideal S200000x128 .f32 :=
  select (broadcastInDim S200000x128 ![0] bcast_S200000_S200000x128_0 (inRangeS idx))
    (Host.gather gather_S50000x128_S200000x1_S200000x128_1_0_n_n_0_1_1128 h (normIdxS idx))
    (broadcastInDim S200000x128 ![] bcast_S_S200000x128 (constant S_ .f32 0x7FC00000#32))

/-- The rows of `u` summed into the rows `dst` names, from zero. -/
def segSum (u : FVec Ideal S800000x128 .f32) (dst : IVec S800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) u

/-- Per scored pair, the sum over features of h[s] * h[d], as a column. -/
def edgeScore (h : FVec Ideal S50000x128 .f32) (s d : IVec S200000 32) : FVec Ideal S200000x1 .f32 :=
  broadcastInDim S200000x1 ![0] bcast_S200000_S200000x1_0
    (Host.reduceAdd (mulf (takeFillS h s) (takeFillS h d)) (constant S_ .f32 0x00000000#32)
      reducesTo_S200000x128_S200000_d1 h_S_)

/-- The first dense stage's input: x scaled by the source-side degrees. -/
def stage0 (x : FVec Ideal S50000x128 .f32) (src : IVec S800000 32) : FVec Ideal S50000x128 .f32 :=
  rowScale x (degCol src)

/-- After the first layer (already scaled for the second layer's gather). -/
def stage1 (x : FVec Ideal S50000x128 .f32) (src dst : IVec S800000 32) (w1 : FVec Ideal S128x128 .f32)
    (b1 : FVec Ideal S128 .f32) : FVec Ideal S50000x128 .f32 :=
  layer (segSum (takeFillE (stage0 x src) src) dst) (degCol dst) w1 (biasRow b1) (degCol src)

/-- After the second layer. -/
def stage2 (x : FVec Ideal S50000x128 .f32) (src dst : IVec S800000 32) (w1 : FVec Ideal S128x128 .f32)
    (b1 : FVec Ideal S128 .f32) (w2 : FVec Ideal S128x128 .f32) (b2 : FVec Ideal S128 .f32) : FVec Ideal S50000x128 .f32 :=
  layer (segSum (takeFillE (stage1 x src dst w1 b1) src) dst) (degCol dst) w2 (biasRow b2) onesCol

/-- The kernel's result as a function of its nine arguments. -/
def kernelValue (x : FVec Ideal S50000x128 .f32) (src dst : IVec S800000 32) (ss sd : IVec S200000 32)
    (w1 : FVec Ideal S128x128 .f32) (b1 : FVec Ideal S128 .f32) (w2 : FVec Ideal S128x128 .f32) (b2 : FVec Ideal S128 .f32) :
    FVec Ideal S200000x1 .f32 :=
  edgeScore (stage2 x src dst w1 b1 w2 b2) ss sd

end Cert.KernelIdeal.Terms

end
-- ==== Proof.KRegion0.lean ====
/- Region 0 (the row-scaling kernel): what its output array holds after the ten grid points. -/
import proofs.«400488_j33122787786914_2_alg».proof.Proof.Gen.KernelIdeal.Frame
import proofs.«400488_j33122787786914_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- The body reads and writes each staging buffer from its origin: the offset (0, 0) is the zero offset. -/
theorem origin_eq : (![0, 0] : Fin 2 → Nat) = fun _ => 0 :=
  funext fun a => by match a with | ⟨0, _⟩ => rfl | ⟨1, _⟩ => rfl

/-- A column of 5000 entries spread along 128 lanes, read at row `p` and lane `q`, is the column's entry in row `p`:
    the lane is forgotten, the row is kept. -/
theorem column_spread_apply (v : FVec Ideal S5000x1 .f32) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The body's arithmetic at row `p`, lane `q` of a block: the table block's entry times the column block's entry
    of the same row. -/
theorem payload_apply (x0 : Vec Ideal S5000x128 .f32) (x1 : Vec Ideal S5000x1 .f32) (p : Fin 5000) (q : Fin 128) :
    k0_pay1 x0 x1 (ix2 p q) = x0 (ix2 p q) * x1 (ix2 p (0 : Fin 1)) := by
  unfold k0_pay1
  rw [shapeCast_self]
  exact congrArg (x0 (ix2 p q) * ·) (column_spread_apply x1 _ p q)

/-- The printed index maps over the ten grid points: at point `t` every window is at block row `t`, block column 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- One entry of a block, over any blocks and any arrays: if the table block at (`p`, `q`) holds the table's entry at
    `i`, and the column block at row `p` holds the column's entry in `i`'s row, then the body's result at (`p`, `q`) is
    the scaled table's entry at `i`. -/
theorem block_entry (x0 : Vec Ideal S5000x128 .f32) (x1 : Vec Ideal S5000x1 .f32)
    (a : FVec Ideal S50000x128 .f32) (s : FVec Ideal S50000x1 .f32) (i : S50000x128.Idx) (p : Fin 5000) (q : Fin 128)
    (h0 : x0 (ix2 p q) = a i) (h1 : x1 (ix2 p (0 : Fin 1)) = s (ix2 (rowOf i) (0 : Fin 1))) :
    k0_pay1 x0 x1 (ix2 p q) = rowScale a s i := by
  rw [payload_apply, h0, h1]
  rfl

/-- What point `t` writes back is block `t` of the scaled table: row `p` of block `t` is row `5000 t + p` of the
    table and of the column alike, so the body's product there is the scaled table's entry. -/
theorem flushed (c : Dev nD) (t : Fin cfg0.N) :
    (dat0 (F := Ideal) V c).flushed 2 t
      = ((cfg0.win 2).blk t).view.read (Elt Ideal) (rowScale (V c main_arg0) (V c main_v10)) := by
  show (cfg0.win 2).cut (grid0.coords t) ((dat0 (F := Ideal) V c).after 2 t) = _
  rw [after0_2]
  unfold out0_2
  rw [View.canon_unit_zero origin_eq]
  simp only [View.ld_unit_zero (S := S5000x128) origin_eq, View.ld_unit_zero (S := S5000x1) origin_eq]
  obtain ⟨e00, e01, e10, e11, e20, e21⟩ := block_index t
  funext j
  obtain ⟨p, q, rfl⟩ : ∃ (p : Fin 5000) (q : Fin 128), j = ix2 p q := ⟨j 0, j 1, eq_ix2 j⟩
  refine block_entry (iblk0 V c 0 t) (iblk0 V c 1 t) (V c main_arg0) (V c main_v10)
    (((cfg0.win 2).blk t).view.emb (ix2 p q)) p q ?_ ?_
  · show V c main_arg0 (((cfg0.win 0).blk t).view.emb (ix2 p q)) = V c main_arg0 (((cfg0.win 2).blk t).view.emb (ix2 p q))
    refine congrArg (V c main_arg0) (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 128 + 1 * q.val = win0_2.index t (1 : Fin 2) * 128 + 1 * q.val
      omega
  · show V c main_v10 (((cfg0.win 1).blk t).view.emb (ix2 p (0 : Fin 1)))
        = V c main_v10 (ix2 (rowOf (((cfg0.win 2).blk t).view.emb (ix2 p q))) (0 : Fin 1))
    refine congrArg (V c main_v10) (funext fun a => Fin.ext ?_)
    match a with
    | ⟨0, _⟩ =>
      show win0_1.index t (0 : Fin 2) * 5000 + 1 * p.val = win0_2.index t (0 : Fin 2) * 5000 + 1 * p.val
      omega
    | ⟨1, _⟩ =>
      show win0_1.index t (1 : Fin 2) * 1 + 1 * 0 = 0
      omega

/-- An index of the table lies in point `t`'s block exactly when each coordinate lies in the block's range on its axis. -/
theorem mem_block (t : Fin cfg0.N) (i : S50000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v14).slice (win0_2.rect t)).set ↔ _
  rw [View.set_slice_whole, Rect.mem_set_unit]
  exact Iff.rfl

/-- The ten blocks of 5000 rows fill the 50000 rows: row `r` lies in the block of point `r / 5000`, and every lane
    lies in the one block column. -/
theorem cover (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  obtain ⟨t, ht⟩ : ∃ t : Fin cfg0.N, t.val = (i 0).val / 5000 :=
    ⟨⟨(i 0).val / 5000, by show _ < grid0.N; rw [N_0]; omega⟩, rfl⟩
  obtain ⟨-, -, -, -, e20, e21⟩ := block_index t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After region 0 its output array is the input table scaled row by row by the column it was given. -/
theorem arr (c : Dev nD) :
    (dat0 (F := Ideal) V c).arrAt 2 cfg0.N = rowScale (V c main_arg0) (V c main_v10) :=
  (dat0 (F := Ideal) V c).arrAt_eq_of_cover 2 _ (fun t _ => flushed V c t) cover

end Cert.KernelIdeal.Region0

end
-- ==== Proof.KRegion1.lean ====
/- Region 1 (the first dense stage): what its output array holds after the ten grid points. -/
import proofs.«400488_j33122787786914_2_alg».proof.Proof.Gen.KernelIdeal.Frame
import proofs.«400488_j33122787786914_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gcn

/-- A column [a, 1] broadcast to [a, b] reads, at (p, c), the column's entry of row p. -/
private theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand of the product is read at the output's row ... -/
private theorem mm_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- ... and at the summation index as its column. -/
private theorem mm_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand is read at the summation index as its row ... -/
private theorem mm_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- ... and at the output's column. -/
private theorem mm_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a 5000 x 128 block with the 128 x 128 matrix, accumulated into zero, read at (p, q):
    the sum over k of left[p, k] * right[k, q]. -/
private theorem mm_apply (y : FVec Ideal S5000x128 .bf16) (w : FVec Ideal S128x128 .bf16) (p : Fin 5000) (q : Fin 128) :
    FloatOps.matmul dot_S5000x128_S128x128_S5000x128_1_0_0_1_n_n none y w (constant (F := Ideal) S5000x128 .f32 0x00000000#32) (ix2 p q)
      = ∑ k : Fin 128, y (ix2 p k) * w (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact mm_lhs_row _ _
    | ⟨1, _⟩ => exact (mm_lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (mm_rhs_row _ _).trans hk
    | ⟨1, _⟩ => exact mm_rhs_col _ _)
  rw [el, er]

/-- The body's arithmetic at entry (p, q) of its block. -/
private theorem pay_apply (x0 : Vec Ideal S5000x128 .f32) (x1 : Vec Ideal S5000x1 .f32) (x2 : Vec Ideal S128x128 .f32)
    (x3 : Vec Ideal S1x128 .f32) (x4 : Vec Ideal S5000x1 .f32) (p : Fin 5000) (q : Fin 128) :
    k1_pay1 (F := Ideal) x0 x1 x2 x3 x4 (ix2 p q)
      = max ((∑ k : Fin 128, (x0 (ix2 p k) * x1 (ix2 p (0 : Fin 1))) * x2 (ix2 k q)) + x3 (ix2 (0 : Fin 1) q))
          (Ideal.ofBits .f32 0x00000000#32) * x4 (ix2 p (0 : Fin 1)) := by
  unfold k1_pay1
  simp only [shapeCast_self]
  rw [mulf_apply, maximumf_apply, addf_apply, broadcast_apply, colBroadcast_apply, broadcastTo_1b_ab_apply]
  simp only [matmul]
  rw [mm_apply]
  refine congrArg (fun s => max (s + x3 (ix2 (0 : Fin 1) q)) (Ideal.ofBits .f32 0x00000000#32) * x4 (ix2 p (0 : Fin 1))) ?_
  refine Finset.sum_congr rfl fun k _ => ?_
  rw [truncf_apply, truncf_apply, mulf_apply, colBroadcast_apply]

variable (V : (c : Dev nD) → (b : Ref sig .tc) → Buf (Elt Ideal) ((c : Thread nD τ).loc b))

/-- The zero offsets of a whole-buffer access, however they are spelt. -/
private theorem zero_offsets : (![0, 0] : Fin 2 → Nat) = fun _ => 0 := funext fun a => by fin_cases a <;> rfl

/-- Where each window's block sits at grid point t: the row-blocked windows (features, the two scaling columns, the
    output) at block row t, the weight matrix and the bias row always at block (0, 0). -/
private theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Entry (p, k) of the feature block at point t is entry (5000 t + p, k) of the feature table. -/
private theorem featBlock_apply (c : Dev nD) (t : Fin cfg1.N) (p : Fin 5000) (k : Fin 128) (r : Fin 50000)
    (hr : r.val = t.val * 5000 + p.val) :
    (iblk1 V c 0 t : Vec Ideal S5000x128 .f32) (ix2 p k) = (V c main_v18 : FVec Ideal S50000x128 .f32) (ix2 r k) := by
  obtain ⟨e0, e1, -⟩ := block_indices t
  show V c main_v18 (((cfg1.win 0).blk t).view.emb (ix2 p k)) = V c main_v18 (ix2 r k)
  refine congrArg (V c main_v18) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Entry (p, 0) of the inner scaling column's block at point t is entry (5000 t + p, 0) of the column. -/
private theorem innerScaleBlock_apply (c : Dev nD) (t : Fin cfg1.N) (p : Fin 5000) (r : Fin 50000)
    (hr : r.val = t.val * 5000 + p.val) :
    (iblk1 V c 1 t : Vec Ideal S5000x1 .f32) (ix2 p (0 : Fin 1)) = (V c main_v12 : FVec Ideal S50000x1 .f32) (ix2 r (0 : Fin 1)) := by
  obtain ⟨-, -, e0, e1, -⟩ := block_indices t
  show V c main_v12 (((cfg1.win 1).blk t).view.emb (ix2 p (0 : Fin 1))) = V c main_v12 (ix2 r (0 : Fin 1))
  refine congrArg (V c main_v12) (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- The weight window's block is the whole weight matrix at every point. -/
private theorem weightBlock_apply (c : Dev nD) (t : Fin cfg1.N) (k q : Fin 128) :
    (iblk1 V c 2 t : Vec Ideal S128x128 .f32) (ix2 k q) = (V c main_arg5 : FVec Ideal S128x128 .f32) (ix2 k q) := by
  obtain ⟨-, -, -, -, e0, e1, -⟩ := block_indices t
  show V c main_arg5 (((cfg1.win 2).blk t).view.emb (ix2 k q)) = V c main_arg5 (ix2 k q)
  refine congrArg (V c main_arg5) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The bias window's block is the whole bias row at every point. -/
private theorem biasBlock_apply (c : Dev nD) (t : Fin cfg1.N) (q : Fin 128) :
    (iblk1 V c 3 t : Vec Ideal S1x128 .f32) (ix2 (0 : Fin 1) q) = (V c main_v19 : FVec Ideal S1x128 .f32) (ix2 (0 : Fin 1) q) := by
  obtain ⟨-, -, -, -, -, -, e0, e1, -⟩ := block_indices t
  show V c main_v19 (((cfg1.win 3).blk t).view.emb (ix2 (0 : Fin 1) q)) = V c main_v19 (ix2 (0 : Fin 1) q)
  refine congrArg (V c main_v19) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- Entry (p, 0) of the outer scaling column's block at point t is entry (5000 t + p, 0) of the column. -/
private theorem outerScaleBlock_apply (c : Dev nD) (t : Fin cfg1.N) (p : Fin 5000) (r : Fin 50000)
    (hr : r.val = t.val * 5000 + p.val) :
    (iblk1 V c 4 t : Vec Ideal S5000x1 .f32) (ix2 p (0 : Fin 1)) = (V c main_v10 : FVec Ideal S50000x1 .f32) (ix2 r (0 : Fin 1)) := by
  obtain ⟨-, -, -, -, -, -, -, -, e0, e1, -⟩ := block_indices t
  show V c main_v10 (((cfg1.win 4).blk t).view.emb (ix2 p (0 : Fin 1))) = V c main_v10 (ix2 r (0 : Fin 1))
  refine congrArg (V c main_v10) (funext fun a => Fin.ext ?_)
  match a with
  | ⟨0, _⟩ => show win1_4.index t (0 : Fin 2) * 5000 + 1 * p.val = r.val; omega
  | ⟨1, _⟩ => show win1_4.index t (1 : Fin 2) * 1 + 1 * 0 = 0; omega

/-- Entry (p, q) of the output's block at point t sits at (5000 t + p, q) of the output table. -/
private theorem outBlock_emb (t : Fin cfg1.N) (p : Fin 5000) (q : Fin 128) (r : Fin 50000)
    (hr : r.val = t.val * 5000 + p.val) :
    ((cfg1.win 5).blk t).view.emb (ix2 p q) = (ix2 r q : S50000x128.Idx) := by
  obtain ⟨-, -, -, -, -, -, -, -, -, -, e0, e1⟩ := block_indices t
  refine funext fun a => Fin.ext ?_
  match a with
  | ⟨0, _⟩ => show win1_5.index t (0 : Fin 2) * 5000 + 1 * p.val = r.val; omega
  | ⟨1, _⟩ => show win1_5.index t (1 : Fin 2) * 128 + 1 * q.val = q.val; omega

/-- What point t writes back is block t of the dense stage of the five arrays. -/
private theorem flushed_eq (c : Dev nD) (t : Fin cfg1.N) :
    (dat1 (F := Ideal) V c).flushed 5 t
      = ((cfg1.win 5).blk t).view.read (Elt Ideal)
          (layer (V c main_v18) (V c main_v12) (V c main_arg5) (V c main_v19) (V c main_v10)) := by
  show (cfg1.win 5).cut (grid1.coords t) ((dat1 (F := Ideal) V c).after 5 t) = _
  rw [after1_5]
  unfold out1_5
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  funext j
  obtain ⟨p, q, rfl⟩ : ∃ (p : Fin 5000) (q : Fin 128), j = ix2 p q := ⟨j 0, j 1, eq_ix2 j⟩
  have ht : t.val < 10 := lt_of_lt_of_eq t.isLt N_1
  have hr : t.val * 5000 + p.val < 50000 := by have := p.isLt; omega
  show k1_pay1 (F := Ideal) (iblk1 V c 0 t) (iblk1 V c 1 t) (iblk1 V c 2 t) (iblk1 V c 3 t) (iblk1 V c 4 t) (ix2 p q)
    = layer (V c main_v18) (V c main_v12) (V c main_arg5) (V c main_v19) (V c main_v10) (((cfg1.win 5).blk t).view.emb (ix2 p q))
  rw [outBlock_emb t p q ⟨t.val * 5000 + p.val, hr⟩ rfl]
  refine (pay_apply (iblk1 V c 0 t) (iblk1 V c 1 t) (iblk1 V c 2 t) (iblk1 V c 3 t) (iblk1 V c 4 t) p q).trans ?_
  rw [innerScaleBlock_apply V c t p ⟨t.val * 5000 + p.val, hr⟩ rfl, biasBlock_apply V c t q,
    outerScaleBlock_apply V c t p ⟨t.val * 5000 + p.val, hr⟩ rfl]
  refine congrArg (fun s => max (s + (V c main_v19 : FVec Ideal S1x128 .f32) (ix2 (0 : Fin 1) q)) (Ideal.ofBits .f32 0x00000000#32)
      * (V c main_v10 : FVec Ideal S50000x1 .f32) (ix2 (⟨t.val * 5000 + p.val, hr⟩ : Fin 50000) (0 : Fin 1))) ?_
  refine Finset.sum_congr rfl fun k _ => ?_
  rw [featBlock_apply V c t p k ⟨t.val * 5000 + p.val, hr⟩ rfl, weightBlock_apply V c t k q]

/-- An index of the output table lies in point t's block iff each coordinate lies in the block's range on its axis. -/
private theorem mem_outBlock (t : Fin cfg1.N) (i : S50000x128.Idx) :
    i ∈ ((cfg1.win 5).blk t).view.set
      ↔ ∀ a : Fin 2, win1_5.index t a * S5000x128.size a ≤ (i a).val
          ∧ (i a).val < win1_5.index t a * S5000x128.size a + S5000x128.size a := by
  show i ∈ ((View.whole main_v20).slice (win1_5.rect t)).set ↔ _
  rw [View.set_slice_whole, Rect.mem_set_unit]
  exact Iff.rfl

/-- Every entry of the output table is written: row r by the point r / 5000. -/
private theorem covered (i : S50000x128.Idx) :
    ∃ t : Fin cfg1.N, (cfg1.win 5).flush t = true ∧ i ∈ ((cfg1.win 5).blk t).view.set := by
  have hi0 : (i 0).val < 50000 := idx2_lt0 i
  have hi1 : (i 1).val < 128 := idx2_lt1 i
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, -, -, -, -, -, e0, e1⟩ := block_indices t
  refine ⟨t, flush1_5 t, ?_⟩
  rw [mem_outBlock]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- After region 1 its output array is the dense stage of the arrays it was given. -/
theorem arr (c : Dev nD) :
    (dat1 (F := Ideal) V c).arrAt 5 cfg1.N
      = layer (V c main_v18) (V c main_v12) (V c main_arg5) (V c main_v19) (V c main_v10) :=
  (dat1 (F := Ideal) V c).arrAt_eq_of_cover 5
    (layer (V c main_v18) (V c main_v12) (V c main_arg5) (V c main_v19) (V c main_v10))
    (fun t _ => flushed_eq V c t) covered

end Cert.KernelIdeal.Region1

end
-- ==== Proof.KRegion2.lean ====
/- Region 2 (the second dense stage): what its output array holds after the ten grid points. -/
import proofs.«400488_j33122787786914_2_alg».proof.Proof.Gen.KernelIdeal.Frame
import proofs.«400488_j33122787786914_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- The body reads and writes each staging buffer from its origin: the offset (0, 0) is the zero offset. -/
theorem origin_eq : (![0, 0] : Fin 2 → Nat) = fun _ => 0 :=
  funext fun a => by match a with | ⟨0, _⟩ => rfl | ⟨1, _⟩ => rfl

/-- A column of 5000 entries spread along 128 lanes, read at row `p` and lane `q`, is the column's entry in row `p`. -/
theorem column_spread_apply (v : FVec Ideal S5000x1 .f32) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A row of 128 entries repeated down 5000 rows, read at row `p` and lane `q`, is the row's entry at lane `q`. -/
theorem row_repeat_apply (v : FVec Ideal S1x128 .f32) (h : S1x128.Broadcasts S5000x128) (p : Fin 5000) (q : Fin 128) :
    broadcastTo S5000x128 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-! The matrix product contracts the left operand's lanes against the right operand's rows. Its four index facts, one
    per operand axis: the left index keeps the output's row and takes the summation position as its lane; the right
    index takes the summation position as its row and keeps the output's lane. -/

theorem left_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem left_lane (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
theorem right_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem right_lane (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, at row `p` and lane `q`: the sum over the 128 summation positions of the
    left operand's row `p` against the right operand's column `q`. -/
theorem product_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact left_row _ _
    | ⟨1, _⟩ => exact (left_lane _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (right_row _ _).trans hk
    | ⟨1, _⟩ => exact right_lane _ _)
  rw [el, er]

/-- The body's arithmetic at row `p`, lane `q` of a block: the feature block's row `p`, scaled by the first column
    block's entry of that row, against column `q` of the weights; plus the bias at lane `q`; clamped below at zero;
    times the second column block's entry of row `p`. Changes of float format are the identity on extended reals. -/
theorem payload_apply (x0 : Vec Ideal S5000x128 .f32) (x1 : Vec Ideal S5000x1 .f32) (x2 : Vec Ideal S128x128 .f32)
    (x3 : Vec Ideal S1x128 .f32) (x4 : Vec Ideal S5000x1 .f32) (p : Fin 5000) (q : Fin 128) :
    k2_pay1 x0 x1 x2 x3 x4 (ix2 p q)
      = max ((∑ k : Fin 128, (x0 (ix2 p k) * x1 (ix2 p (0 : Fin 1))) * x2 (ix2 k q)) + x3 (ix2 (0 : Fin 1) q))
          (Ideal.ofBits .f32 0x00000000#32) * x4 (ix2 p (0 : Fin 1)) := by
  unfold k2_pay1
  simp only [shapeCast_self]
  show max (matmul dot_S5000x128_S128x128_S5000x128_1_0_0_1_n_n none
          (truncf .bf16 (mulf x0 (broadcastTo S5000x128 x1 _)) _) (truncf .bf16 x2 _)
          (constant (F := Ideal) S5000x128 .f32 0x00000000#32) (ix2 p q)
        + broadcastTo S5000x128 x3 _ (ix2 p q)) (Ideal.ofBits .f32 0x00000000#32)
      * broadcastTo S5000x128 x4 _ (ix2 p q) = _
  rw [product_apply, row_repeat_apply, column_spread_apply]
  refine congrArg (fun s => max (s + x3 (ix2 (0 : Fin 1) q)) (Ideal.ofBits .f32 0x00000000#32) * x4 (ix2 p (0 : Fin 1)))
    (Finset.sum_congr rfl fun k _ => ?_)
  show (x0 (ix2 p k) * broadcastTo S5000x128 x1 _ (ix2 p k)) * x2 (ix2 k q) = _
  rw [column_spread_apply]

/-- One entry of a block, over any blocks and any arrays: if at (`p`, `q`) the blocks hold what the arrays hold in the
    row and the column of the table index `i` — the feature block's row `p` is the features' row of `i`, both column
    blocks' row `p` is the columns' row of `i`, the weight block's column `q` is the weights' column of `i`, the bias
    block's lane `q` is the bias's lane of `i` — then the body's result at (`p`, `q`) is the dense stage's entry at `i`. -/
theorem block_entry (x0 : Vec Ideal S5000x128 .f32) (x1 : Vec Ideal S5000x1 .f32) (x2 : Vec Ideal S128x128 .f32)
    (x3 : Vec Ideal S1x128 .f32) (x4 : Vec Ideal S5000x1 .f32)
    (a : FVec Ideal S50000x128 .f32) (sin : FVec Ideal S50000x1 .f32) (w : FVec Ideal S128x128 .f32)
    (b : FVec Ideal S1x128 .f32) (sout : FVec Ideal S50000x1 .f32) (i : S50000x128.Idx) (p : Fin 5000) (q : Fin 128)
    (h0 : ∀ k : Fin 128, x0 (ix2 p k) = a (ix2 (rowOf i) k))
    (h1 : x1 (ix2 p (0 : Fin 1)) = sin (ix2 (rowOf i) (0 : Fin 1)))
    (h2 : ∀ k : Fin 128, x2 (ix2 k q) = w (ix2 k (colOf i)))
    (h3 : x3 (ix2 (0 : Fin 1) q) = b (ix2 (0 : Fin 1) (colOf i)))
    (h4 : x4 (ix2 p (0 : Fin 1)) = sout (ix2 (rowOf i) (0 : Fin 1))) :
    k2_pay1 x0 x1 x2 x3 x4 (ix2 p q) = layer a sin w b sout i := by
  rw [payload_apply, h1, h3, h4]
  simp only [h0, h2]
  rfl

/-- The printed index maps over the ten grid points: at point `t` the feature window, both column windows and the output
    window are at block row `t`, block column 0; the weight window and the bias window stay at block (0, 0). -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the dense stage: row `p` of block `t` is row `5000 t + p` of the
    features and of both columns, lane `q` is lane `q` of the table, and the weights and the bias are read whole. -/
theorem flushed (c : Dev nD) (t : Fin cfg2.N) :
    (dat2 (F := Ideal) V c).flushed 5 t
      = ((cfg2.win 5).blk t).view.read (Elt Ideal)
          (layer (V c main_v24) (V c main_v12) (V c main_arg7) (V c main_v25) (V c main_v13)) := by
  show (cfg2.win 5).cut (grid2.coords t) ((dat2 (F := Ideal) V c).after 5 t) = _
  rw [after2_5]
  unfold out2_5
  rw [View.canon_unit_zero origin_eq]
  simp only [View.ld_unit_zero (S := S5000x128) origin_eq, View.ld_unit_zero (S := S5000x1) origin_eq,
    View.ld_unit_zero (S := S128x128) origin_eq, View.ld_unit_zero (S := S1x128) origin_eq]
  obtain ⟨e00, e01, e10, e11, e20, e21, e30, e31, e40, e41, e50, e51⟩ := block_index t
  funext j
  obtain ⟨p, q, rfl⟩ : ∃ (p : Fin 5000) (q : Fin 128), j = ix2 p q := ⟨j 0, j 1, eq_ix2 j⟩
  refine block_entry (iblk2 V c 0 t) (iblk2 V c 1 t) (iblk2 V c 2 t) (iblk2 V c 3 t) (iblk2 V c 4 t)
    (V c main_v24) (V c main_v12) (V c main_arg7) (V c main_v25) (V c main_v13)
    (((cfg2.win 5).blk t).view.emb (ix2 p q)) p q ?_ ?_ ?_ ?_ ?_
  · intro k
    show V c main_v24 (((cfg2.win 0).blk t).view.emb (ix2 p k))
        = V c main_v24 (ix2 (rowOf (((cfg2.win 5).blk t).view.emb (ix2 p q))) k)
    refine congrArg (V c main_v24) (funext fun a => Fin.ext ?_)
    match a with
    | ⟨0, _⟩ =>
      show win2_0.index t (0 : Fin 2) * 5000 + 1 * p.val = win2_5.index t (0 : Fin 2) * 5000 + 1 * p.val
      omega
    | ⟨1, _⟩ =>
      show win2_0.index t (1 : Fin 2) * 128 + 1 * k.val = k.val
      omega
  · show V c main_v12 (((cfg2.win 1).blk t).view.emb (ix2 p (0 : Fin 1)))
        = V c main_v12 (ix2 (rowOf (((cfg2.win 5).blk t).view.emb (ix2 p q))) (0 : Fin 1))
    refine congrArg (V c main_v12) (funext fun a => Fin.ext ?_)
    match a with
    | ⟨0, _⟩ =>
      show win2_1.index t (0 : Fin 2) * 5000 + 1 * p.val = win2_5.index t (0 : Fin 2) * 5000 + 1 * p.val
      omega
    | ⟨1, _⟩ =>
      show win2_1.index t (1 : Fin 2) * 1 + 1 * 0 = 0
      omega
  · intro k
    show V c main_arg7 (((cfg2.win 2).blk t).view.emb (ix2 k q))
        = V c main_arg7 (ix2 k (colOf (((cfg2.win 5).blk t).view.emb (ix2 p q))))
    refine congrArg (V c main_arg7) (funext fun a => Fin.ext ?_)
    match a with
    | ⟨0, _⟩ =>
      show win2_2.index t (0 : Fin 2) * 128 + 1 * k.val = k.val
      omega
    | ⟨1, _⟩ =>
      show win2_2.index t (1 : Fin 2) * 128 + 1 * q.val = win2_5.index t (1 : Fin 2) * 128 + 1 * q.val
      omega
  · show V c main_v25 (((cfg2.win 3).blk t).view.emb (ix2 (0 : Fin 1) q))
        = V c main_v25 (ix2 (0 : Fin 1) (colOf (((cfg2.win 5).blk t).view.emb (ix2 p q))))
    refine congrArg (V c main_v25) (funext fun a => Fin.ext ?_)
    match a with
    | ⟨0, _⟩ =>
      show win2_3.index t (0 : Fin 2) * 1 + 1 * 0 = 0
      omega
    | ⟨1, _⟩ =>
      show win2_3.index t (1 : Fin 2) * 128 + 1 * q.val = win2_5.index t (1 : Fin 2) * 128 + 1 * q.val
      omega
  · show V c main_v13 (((cfg2.win 4).blk t).view.emb (ix2 p (0 : Fin 1)))
        = V c main_v13 (ix2 (rowOf (((cfg2.win 5).blk t).view.emb (ix2 p q))) (0 : Fin 1))
    refine congrArg (V c main_v13) (funext fun a => Fin.ext ?_)
    match a with
    | ⟨0, _⟩ =>
      show win2_4.index t (0 : Fin 2) * 5000 + 1 * p.val = win2_5.index t (0 : Fin 2) * 5000 + 1 * p.val
      omega
    | ⟨1, _⟩ =>
      show win2_4.index t (1 : Fin 2) * 1 + 1 * 0 = 0
      omega

/-- An index of the table lies in point `t`'s block exactly when each coordinate lies in the block's range on its axis. -/
theorem mem_block (t : Fin cfg2.N) (i : S50000x128.Idx) :
    i ∈ ((cfg2.win 5).blk t).view.set
      ↔ ∀ a : Fin 2, win2_5.index t a * S5000x128.size a ≤ (i a).val
          ∧ (i a).val < win2_5.index t a * S5000x128.size a + S5000x128.size a := by
  show i ∈ ((View.whole main_v26).slice (win2_5.rect t)).set ↔ _
  rw [View.set_slice_whole, Rect.mem_set_unit]
  exact Iff.rfl

/-- The ten blocks of 5000 rows fill the 50000 rows: row `r` lies in the block of point `r / 5000`, and every lane
    lies in the one block column. -/
theorem cover (i : S50000x128.Idx) :
    ∃ t : Fin cfg2.N, (cfg2.win 5).flush t = true ∧ i ∈ ((cfg2.win 5).blk t).view.set := by
  have hi0 : (i 0).val < 50000 := idx2_lt0 i
  have hi1 : (i 1).val < 128 := idx2_lt1 i
  obtain ⟨t, ht⟩ : ∃ t : Fin cfg2.N, t.val = (i 0).val / 5000 :=
    ⟨⟨(i 0).val / 5000, by show _ < grid2.N; rw [N_2]; omega⟩, rfl⟩
  obtain ⟨-, -, -, -, -, -, -, -, -, -, e50, e51⟩ := block_index t
  refine ⟨t, flush2_5 t, ?_⟩
  rw [mem_block]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- After region 2 its output array is the dense stage of the arrays it was given. -/
theorem arr (c : Dev nD) :
    (dat2 (F := Ideal) V c).arrAt 5 cfg2.N
      = layer (V c main_v24) (V c main_v12) (V c main_arg7) (V c main_v25) (V c main_v13) :=
  (dat2 (F := Ideal) V c).arrAt_eq_of_cover 5 _ (fun t _ => flushed V c t) cover

end Cert.KernelIdeal.Region2

end
-- ==== Proof.KFold.lean ====
/- The kernel program's result buffer at the last boundary, read back through the host stretches and the three
   regions to the nine arguments.

   The program is a chain: host operations build the two degree columns and the column of ones; region 0 scales the
   node table by the source-side column; a filled take along the edges and a scatter-add give the first aggregate;
   region 1 is the first dense stage; the same take and scatter-add give the second aggregate; region 2 is the second
   dense stage; two filled takes along the scored pairs, a product and a sum over features give the scores.
   Each lemma below says what ONE buffer holds at ONE boundary, as a named stage of the nine arguments; a buffer
   that the operations in between do not write holds what it held before, and an input array of a region leaves
   the region as it entered it. The theorem at the end is the last of these lemmas. -/
import proofs.«400488_j33122787786914_2_alg».proof.Proof.Gen.KernelIdeal.Frame
import proofs.«400488_j33122787786914_2_alg».proof.Proof.KTerms
import proofs.«400488_j33122787786914_2_alg».proof.Proof.KRegion0
import proofs.«400488_j33122787786914_2_alg».proof.Proof.KRegion1
import proofs.«400488_j33122787786914_2_alg».proof.Proof.KRegion2
import Idealize.ShloMosaic.Lib.StableHlo.Run

set_option maxRecDepth 16384

noncomputable section

namespace Cert.KernelIdeal.Fold

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gcn
open Cert.KernelIdeal.Terms

variable (m : (ℓ : Loc nD τ sig) → Buf (Elt Ideal) ℓ) (ρ : Dev nD → PrngReg)

/-! ## A value read at a buffer's printed type

An operation of an outlined function reads and writes its buffers at the tensor types the function prints; between
the printed type and the buffer's own type stands a transport along an equation of types that holds by computation.
Moving a value to the buffer's type and back gives the value, and at a literal buffer either move is the identity. -/

private theorem ofBuf_toBuf {T : BufTy} (x : StableHlo.TRef sig T) (v : T.Contents (Elt Ideal)) :
    x.ofBuf (x.toBuf v) = v := by
  obtain ⟨r, h, hd, hu⟩ := x
  subst h
  rfl

private theorem ofBuf_cst_2 (v) : (StableHlo.TRef.of main_cst_2 : StableHlo.TRef sig ⟨S_, .f32⟩).ofBuf (Val := Elt Ideal) v = v := rfl
private theorem ofBuf_cst_3 (v) : (StableHlo.TRef.of main_cst_3 : StableHlo.TRef sig ⟨S_, .f32⟩).ofBuf (Val := Elt Ideal) v = v := rfl
private theorem ofBuf_v3 (v) : (StableHlo.TRef.of main_v3 : StableHlo.TRef sig ⟨S50000, .f32⟩).ofBuf (Val := Elt Ideal) v = v := rfl
private theorem ofBuf_v6 (v) : (StableHlo.TRef.of main_v6 : StableHlo.TRef sig ⟨S50000, .f32⟩).ofBuf (Val := Elt Ideal) v = v := rfl
private theorem toBuf_v7 (v) : (StableHlo.TRef.of main_v7 : StableHlo.TRef sig ⟨S50000, .f32⟩).toBuf (Val := Elt Ideal) v = v := rfl
private theorem toBuf_v8 (v) : (StableHlo.TRef.of main_v8 : StableHlo.TRef sig ⟨S50000, .f32⟩).toBuf (Val := Elt Ideal) v = v := rfl
private theorem ofBuf_arg1 (v) : (StableHlo.TRef.of main_arg1 : StableHlo.TRef sig ⟨S800000, .i32⟩).ofBuf (Val := Elt Ideal) v = v := rfl
private theorem ofBuf_arg3 (v) : (StableHlo.TRef.of main_arg3 : StableHlo.TRef sig ⟨S200000, .i32⟩).ofBuf (Val := Elt Ideal) v = v := rfl
private theorem ofBuf_arg4 (v) : (StableHlo.TRef.of main_arg4 : StableHlo.TRef sig ⟨S200000, .i32⟩).ofBuf (Val := Elt Ideal) v = v := rfl
private theorem ofBuf_v14 (v) : (StableHlo.TRef.of main_v14 : StableHlo.TRef sig ⟨S50000x128, .f32⟩).ofBuf (Val := Elt Ideal) v = v := rfl
private theorem ofBuf_v20 (v) : (StableHlo.TRef.of main_v20 : StableHlo.TRef sig ⟨S50000x128, .f32⟩).ofBuf (Val := Elt Ideal) v = v := rfl
private theorem ofBuf_v26 (v) : (StableHlo.TRef.of main_v26 : StableHlo.TRef sig ⟨S50000x128, .f32⟩).ofBuf (Val := Elt Ideal) v = v := rfl
private theorem toBuf_v15 (v) : (StableHlo.TRef.of main_v15 : StableHlo.TRef sig ⟨S800000x128, .f32⟩).toBuf (Val := Elt Ideal) v = v := rfl
private theorem toBuf_v21 (v) : (StableHlo.TRef.of main_v21 : StableHlo.TRef sig ⟨S800000x128, .f32⟩).toBuf (Val := Elt Ideal) v = v := rfl
private theorem toBuf_v27 (v) : (StableHlo.TRef.of main_v27 : StableHlo.TRef sig ⟨S200000x128, .f32⟩).toBuf (Val := Elt Ideal) v = v := rfl
private theorem toBuf_v28 (v) : (StableHlo.TRef.of main_v28 : StableHlo.TRef sig ⟨S200000x128, .f32⟩).toBuf (Val := Elt Ideal) v = v := rfl

/-- Walks a buffer's contents back through a run of host operations: each operation's own result becomes its
    function of its operands' contents, and every other buffer keeps what it held. -/
local macro "host_pass" : tactic => `(tactic| (after_results_simp <;> rfl))

/-! ## The nine arguments as launched on core `c` -/

private abbrev aX (c : Dev nD) : FVec Ideal S50000x128 .f32 := m ((c.tc : Thread nD τ).loc main_arg0)
private abbrev aSrc (c : Dev nD) : IVec S800000 32 := m ((c.tc : Thread nD τ).loc main_arg1)
private abbrev aDst (c : Dev nD) : IVec S800000 32 := m ((c.tc : Thread nD τ).loc main_arg2)
private abbrev aSs (c : Dev nD) : IVec S200000 32 := m ((c.tc : Thread nD τ).loc main_arg3)
private abbrev aSd (c : Dev nD) : IVec S200000 32 := m ((c.tc : Thread nD τ).loc main_arg4)
private abbrev aW1 (c : Dev nD) : FVec Ideal S128x128 .f32 := m ((c.tc : Thread nD τ).loc main_arg5)
private abbrev aB1 (c : Dev nD) : FVec Ideal S128 .f32 := m ((c.tc : Thread nD τ).loc main_arg6)
private abbrev aW2 (c : Dev nD) : FVec Ideal S128x128 .f32 := m ((c.tc : Thread nD τ).loc main_arg7)
private abbrev aB2 (c : Dev nD) : FVec Ideal S128 .f32 := m ((c.tc : Thread nD τ).loc main_arg8)

/-! ## Before region 0: no host operation writes an argument; the degree columns and the ones are built -/

private theorem arg0_W5 (c : Dev nD) : W5 (F := Ideal) m ρ c (Proc.devRef .tc main_arg0) = aX m c := by host_pass
private theorem arg1_W5 (c : Dev nD) : W5 (F := Ideal) m ρ c (Proc.devRef .tc main_arg1) = aSrc m c := by host_pass
private theorem arg2_W5 (c : Dev nD) : W5 (F := Ideal) m ρ c (Proc.devRef .tc main_arg2) = aDst m c := by host_pass
private theorem arg5_W5 (c : Dev nD) : W5 (F := Ideal) m ρ c (Proc.devRef .tc main_arg5) = aW1 m c := by host_pass
private theorem arg6_W5 (c : Dev nD) : W5 (F := Ideal) m ρ c (Proc.devRef .tc main_arg6) = aB1 m c := by host_pass
private theorem arg7_W5 (c : Dev nD) : W5 (F := Ideal) m ρ c (Proc.devRef .tc main_arg7) = aW2 m c := by host_pass
private theorem arg8_W5 (c : Dev nD) : W5 (F := Ideal) m ρ c (Proc.devRef .tc main_arg8) = aB2 m c := by host_pass

/-- The source-side degree column: counts by a scatter-add of ones, clipped below at one, inverse square root,
    laid out as a column. -/
private theorem v10_W5 (c : Dev nD) : W5 (F := Ideal) m ρ c (Proc.devRef .tc main_v10) = degCol (aSrc m c) := by
  after_results_simp
  simp only [ofBuf_toBuf, ofBuf_cst_2, ofBuf_v3, toBuf_v7]
  unfold degCol degInv
  rfl

/-- The destination-side degree column, the same way from the other index array. -/
private theorem v12_W5 (c : Dev nD) : W5 (F := Ideal) m ρ c (Proc.devRef .tc main_v12) = degCol (aDst m c) := by
  after_results_simp
  simp only [ofBuf_toBuf, ofBuf_cst_3, ofBuf_v6, toBuf_v8]
  unfold degCol degInv
  rfl

/-- The column of ones. -/
private theorem v13_W5 (c : Dev nD) : W5 (F := Ideal) m ρ c (Proc.devRef .tc main_v13) = onesCol := by
  after_results_simp
  unfold onesCol
  rfl

/-! ## Across region 0: its output is the scaled table; its input column, and every buffer it does not touch, stay -/

/-- Region 0's output: the node table scaled row by row by the source-side degree column. -/
private theorem v14_W6 (c : Dev nD) : W6 (F := Ideal) m ρ c (Proc.devRef .tc main_v14) = stage0 (aX m c) (aSrc m c) := by
  refine (W6_arr m ρ c 2).trans ?_
  refine (Region0.arr (V5 m ρ) c).trans ?_
  show rowScale (W5 (F := Ideal) m ρ c (Proc.devRef .tc main_arg0)) (W5 (F := Ideal) m ρ c (Proc.devRef .tc main_v10)) = _
  rw [arg0_W5, v10_W5]
  rfl

private theorem v10_W6 (c : Dev nD) : W6 (F := Ideal) m ρ c (Proc.devRef .tc main_v10) = degCol (aSrc m c) :=
  ((W6_arr m ρ c 1).trans (((dat0 (V5 m ρ) c).arrAt_in 1 rfl _).trans (A_eq0 (V5 m ρ) c 1))).trans (v10_W5 m ρ c)
private theorem v12_W6 (c : Dev nD) : W6 (F := Ideal) m ρ c (Proc.devRef .tc main_v12) = degCol (aDst m c) :=
  (W6_of_ne m ρ c main_v12 (by decide)).trans (v12_W5 m ρ c)
private theorem v13_W6 (c : Dev nD) : W6 (F := Ideal) m ρ c (Proc.devRef .tc main_v13) = onesCol :=
  (W6_of_ne m ρ c main_v13 (by decide)).trans (v13_W5 m ρ c)
private theorem arg1_W6 (c : Dev nD) : W6 (F := Ideal) m ρ c (Proc.devRef .tc main_arg1) = aSrc m c :=
  (W6_of_ne m ρ c main_arg1 (by decide)).trans (arg1_W5 m ρ c)
private theorem arg2_W6 (c : Dev nD) : W6 (F := Ideal) m ρ c (Proc.devRef .tc main_arg2) = aDst m c :=
  (W6_of_ne m ρ c main_arg2 (by decide)).trans (arg2_W5 m ρ c)
private theorem arg5_W6 (c : Dev nD) : W6 (F := Ideal) m ρ c (Proc.devRef .tc main_arg5) = aW1 m c :=
  (W6_of_ne m ρ c main_arg5 (by decide)).trans (arg5_W5 m ρ c)
private theorem arg6_W6 (c : Dev nD) : W6 (F := Ideal) m ρ c (Proc.devRef .tc main_arg6) = aB1 m c :=
  (W6_of_ne m ρ c main_arg6 (by decide)).trans (arg6_W5 m ρ c)
private theorem arg7_W6 (c : Dev nD) : W6 (F := Ideal) m ρ c (Proc.devRef .tc main_arg7) = aW2 m c :=
  (W6_of_ne m ρ c main_arg7 (by decide)).trans (arg7_W5 m ρ c)
private theorem arg8_W6 (c : Dev nD) : W6 (F := Ideal) m ρ c (Proc.devRef .tc main_arg8) = aB2 m c :=
  (W6_of_ne m ρ c main_arg8 (by decide)).trans (arg8_W5 m ρ c)

/-! ## Before region 1: the filled take along the edges, the scatter-add into the nodes, the bias as a row -/

/-- The first aggregate: rows of the scaled table taken at the edges' sources, summed into the edges' destinations. -/
private theorem v18_W8 (c : Dev nD) :
    W8 (F := Ideal) m ρ c (Proc.devRef .tc main_v18) = segSum (takeFillE (stage0 (aX m c) (aSrc m c)) (aSrc m c)) (aDst m c) := by
  after_results_simp
  simp only [ofBuf_toBuf, ofBuf_arg1, ofBuf_v14, toBuf_v15]
  rw [v14_W6, arg1_W6, arg2_W6]
  unfold segSum takeFillE inRangeE normIdxE
  rfl

/-- The first bias, laid out as one row. -/
private theorem v19_W8 (c : Dev nD) : W8 (F := Ideal) m ρ c (Proc.devRef .tc main_v19) = biasRow (aB1 m c) := by
  after_results_simp
  rw [arg6_W6]
  unfold biasRow
  rfl

private theorem v10_W8 (c : Dev nD) : W8 (F := Ideal) m ρ c (Proc.devRef .tc main_v10) = degCol (aSrc m c) :=
  (by host_pass : W8 (F := Ideal) m ρ c (Proc.devRef .tc main_v10) = W6 (F := Ideal) m ρ c (Proc.devRef .tc main_v10)).trans (v10_W6 m ρ c)
private theorem v12_W8 (c : Dev nD) : W8 (F := Ideal) m ρ c (Proc.devRef .tc main_v12) = degCol (aDst m c) :=
  (by host_pass : W8 (F := Ideal) m ρ c (Proc.devRef .tc main_v12) = W6 (F := Ideal) m ρ c (Proc.devRef .tc main_v12)).trans (v12_W6 m ρ c)
private theorem v13_W8 (c : Dev nD) : W8 (F := Ideal) m ρ c (Proc.devRef .tc main_v13) = onesCol :=
  (by host_pass : W8 (F := Ideal) m ρ c (Proc.devRef .tc main_v13) = W6 (F := Ideal) m ρ c (Proc.devRef .tc main_v13)).trans (v13_W6 m ρ c)
private theorem arg1_W8 (c : Dev nD) : W8 (F := Ideal) m ρ c (Proc.devRef .tc main_arg1) = aSrc m c :=
  (by host_pass : W8 (F := Ideal) m ρ c (Proc.devRef .tc main_arg1) = W6 (F := Ideal) m ρ c (Proc.devRef .tc main_arg1)).trans (arg1_W6 m ρ c)
private theorem arg2_W8 (c : Dev nD) : W8 (F := Ideal) m ρ c (Proc.devRef .tc main_arg2) = aDst m c :=
  (by host_pass : W8 (F := Ideal) m ρ c (Proc.devRef .tc main_arg2) = W6 (F := Ideal) m ρ c (Proc.devRef .tc main_arg2)).trans (arg2_W6 m ρ c)
private theorem arg5_W8 (c : Dev nD) : W8 (F := Ideal) m ρ c (Proc.devRef .tc main_arg5) = aW1 m c :=
  (by host_pass : W8 (F := Ideal) m ρ c (Proc.devRef .tc main_arg5) = W6 (F := Ideal) m ρ c (Proc.devRef .tc main_arg5)).trans (arg5_W6 m ρ c)
private theorem arg7_W8 (c : Dev nD) : W8 (F := Ideal) m ρ c (Proc.devRef .tc main_arg7) = aW2 m c :=
  (by host_pass : W8 (F := Ideal) m ρ c (Proc.devRef .tc main_arg7) = W6 (F := Ideal) m ρ c (Proc.devRef .tc main_arg7)).trans (arg7_W6 m ρ c)
private theorem arg8_W8 (c : Dev nD) : W8 (F := Ideal) m ρ c (Proc.devRef .tc main_arg8) = aB2 m c :=
  (by host_pass : W8 (F := Ideal) m ρ c (Proc.devRef .tc main_arg8) = W6 (F := Ideal) m ρ c (Proc.devRef .tc main_arg8)).trans (arg8_W6 m ρ c)

/-! ## Across region 1: its output is the first dense stage of what it was given -/

/-- Region 1's output: the first layer, already scaled by the source-side column for the next take. -/
private theorem v20_W9 (c : Dev nD) :
    W9 (F := Ideal) m ρ c (Proc.devRef .tc main_v20) = stage1 (aX m c) (aSrc m c) (aDst m c) (aW1 m c) (aB1 m c) := by
  refine (W9_arr m ρ c 5).trans ?_
  refine (Region1.arr (V8 m ρ) c).trans ?_
  show layer (W8 (F := Ideal) m ρ c (Proc.devRef .tc main_v18)) (W8 (F := Ideal) m ρ c (Proc.devRef .tc main_v12))
      (W8 (F := Ideal) m ρ c (Proc.devRef .tc main_arg5)) (W8 (F := Ideal) m ρ c (Proc.devRef .tc main_v19))
      (W8 (F := Ideal) m ρ c (Proc.devRef .tc main_v10)) = _
  rw [v18_W8, v12_W8, arg5_W8, v19_W8, v10_W8]
  rfl

private theorem v12_W9 (c : Dev nD) : W9 (F := Ideal) m ρ c (Proc.devRef .tc main_v12) = degCol (aDst m c) :=
  ((W9_arr m ρ c 1).trans (((dat1 (V8 m ρ) c).arrAt_in 1 rfl _).trans (A_eq1 (V8 m ρ) c 1))).trans (v12_W8 m ρ c)
private theorem v13_W9 (c : Dev nD) : W9 (F := Ideal) m ρ c (Proc.devRef .tc main_v13) = onesCol :=
  (W9_of_ne m ρ c main_v13 (by decide)).trans (v13_W8 m ρ c)
private theorem arg1_W9 (c : Dev nD) : W9 (F := Ideal) m ρ c (Proc.devRef .tc main_arg1) = aSrc m c :=
  (W9_of_ne m ρ c main_arg1 (by decide)).trans (arg1_W8 m ρ c)
private theorem arg2_W9 (c : Dev nD) : W9 (F := Ideal) m ρ c (Proc.devRef .tc main_arg2) = aDst m c :=
  (W9_of_ne m ρ c main_arg2 (by decide)).trans (arg2_W8 m ρ c)
private theorem arg7_W9 (c : Dev nD) : W9 (F := Ideal) m ρ c (Proc.devRef .tc main_arg7) = aW2 m c :=
  (W9_of_ne m ρ c main_arg7 (by decide)).trans (arg7_W8 m ρ c)
private theorem arg8_W9 (c : Dev nD) : W9 (F := Ideal) m ρ c (Proc.devRef .tc main_arg8) = aB2 m c :=
  (W9_of_ne m ρ c main_arg8 (by decide)).trans (arg8_W8 m ρ c)

/-! ## Before region 2: the same take and scatter-add on the first layer, the second bias as a row -/

/-- The second aggregate. -/
private theorem v24_W11 (c : Dev nD) :
    W11 (F := Ideal) m ρ c (Proc.devRef .tc main_v24)
      = segSum (takeFillE (stage1 (aX m c) (aSrc m c) (aDst m c) (aW1 m c) (aB1 m c)) (aSrc m c)) (aDst m c) := by
  after_results_simp
  simp only [ofBuf_toBuf, ofBuf_arg1, ofBuf_v20, toBuf_v21]
  rw [v20_W9, arg1_W9, arg2_W9]
  unfold segSum takeFillE inRangeE normIdxE
  rfl

/-- The second bias, laid out as one row. -/
private theorem v25_W11 (c : Dev nD) : W11 (F := Ideal) m ρ c (Proc.devRef .tc main_v25) = biasRow (aB2 m c) := by
  after_results_simp
  rw [arg8_W9]
  unfold biasRow
  rfl

private theorem v12_W11 (c : Dev nD) : W11 (F := Ideal) m ρ c (Proc.devRef .tc main_v12) = degCol (aDst m c) :=
  (by host_pass : W11 (F := Ideal) m ρ c (Proc.devRef .tc main_v12) = W9 (F := Ideal) m ρ c (Proc.devRef .tc main_v12)).trans (v12_W9 m ρ c)
private theorem v13_W11 (c : Dev nD) : W11 (F := Ideal) m ρ c (Proc.devRef .tc main_v13) = onesCol :=
  (by host_pass : W11 (F := Ideal) m ρ c (Proc.devRef .tc main_v13) = W9 (F := Ideal) m ρ c (Proc.devRef .tc main_v13)).trans (v13_W9 m ρ c)
private theorem arg7_W11 (c : Dev nD) : W11 (F := Ideal) m ρ c (Proc.devRef .tc main_arg7) = aW2 m c :=
  (by host_pass : W11 (F := Ideal) m ρ c (Proc.devRef .tc main_arg7) = W9 (F := Ideal) m ρ c (Proc.devRef .tc main_arg7)).trans (arg7_W9 m ρ c)

/-! ## Across region 2: its output is the second dense stage -/

/-- Region 2's output: the second layer, scaled by ones. -/
private theorem v26_W12 (c : Dev nD) :
    W12 (F := Ideal) m ρ c (Proc.devRef .tc main_v26)
      = stage2 (aX m c) (aSrc m c) (aDst m c) (aW1 m c) (aB1 m c) (aW2 m c) (aB2 m c) := by
  refine (W12_arr m ρ c 5).trans ?_
  refine (Region2.arr (V11 m ρ) c).trans ?_
  show layer (W11 (F := Ideal) m ρ c (Proc.devRef .tc main_v24)) (W11 (F := Ideal) m ρ c (Proc.devRef .tc main_v12))
      (W11 (F := Ideal) m ρ c (Proc.devRef .tc main_arg7)) (W11 (F := Ideal) m ρ c (Proc.devRef .tc main_v25))
      (W11 (F := Ideal) m ρ c (Proc.devRef .tc main_v13)) = _
  rw [v24_W11, v12_W11, arg7_W11, v25_W11, v13_W11]
  rfl

/-- The two arrays of scored pairs are never written: from region 2's exit on they hold what the last boundary
    holds, which is what was launched. -/
private theorem arg3_W12 (c : Dev nD) : W12 (F := Ideal) m ρ c (Proc.devRef .tc main_arg3) = aSs m c :=
  (by host_pass : W15 (F := Ideal) m ρ c (Proc.devRef .tc main_arg3) = W12 (F := Ideal) m ρ c (Proc.devRef .tc main_arg3)).symm.trans
    (W15_main_arg3 m ρ c)
private theorem arg4_W12 (c : Dev nD) : W12 (F := Ideal) m ρ c (Proc.devRef .tc main_arg4) = aSd m c :=
  (by host_pass : W15 (F := Ideal) m ρ c (Proc.devRef .tc main_arg4) = W12 (F := Ideal) m ρ c (Proc.devRef .tc main_arg4)).symm.trans
    (W15_main_arg4 m ρ c)

/-! ## After region 2: two filled takes along the scored pairs, their product summed over the features -/

/-- The scores: per scored pair, the sum over features of the second layer's rows at the pair's two nodes. -/
private theorem v31_W15 (c : Dev nD) :
    W15 (F := Ideal) m ρ c (Proc.devRef .tc main_v31)
      = edgeScore (stage2 (aX m c) (aSrc m c) (aDst m c) (aW1 m c) (aB1 m c) (aW2 m c) (aB2 m c)) (aSs m c) (aSd m c) := by
  after_results_simp
  simp only [ofBuf_toBuf, ofBuf_arg3, ofBuf_arg4, ofBuf_v26, toBuf_v27, toBuf_v28]
  rw [v26_W12, arg3_W12, arg4_W12]
  unfold edgeScore takeFillS inRangeS normIdxS
  rfl

/-- The result buffer at the last boundary is `kernelValue` of the nine arguments as launched. -/
theorem value (c : Dev nD) :
    W15 (F := Ideal) m ρ c (Proc.devRef .tc main_v31)
      = kernelValue (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (v31_W15 m ρ c).trans rfl

end Cert.KernelIdeal.Fold

end
-- ==== Proof.Decode.lean ====
/- What the precondition says of the three index arrays that feed a gather, and what follows for the
   out-of-range fill: with every index in [-50000, 50000) the normalised index is in [0, 49999], the range mask is
   all ones, and the filled take is the plain gather at the normalised indices. -/
import proofs.«400488_j33122787786914_2_alg».proof.Defs
import proofs.«400488_j33122787786914_2_alg».proof.Proof.Gen.KernelIdeal
import proofs.«400488_j33122787786914_2_alg».proof.Proof.Gen.Pre_finite_inputs
import proofs.«400488_j33122787786914_2_alg».proof.Proof.KTerms
import Idealize.ShloMosaic.Lib.ReduceAll
import Idealize.ShloMosaic.Lib.StableHlo.Predicate
import Idealize.ShloMosaic.Lib.ValueIdx

set_option maxRecDepth 16384

noncomputable section

namespace Cert.KernelIdeal.Decode

open Idealize.ShloMosaic Idealize.ShloMosaic.TcCoe Idealize.ShloMosaic.ValueIdx
open Idealize.SL.Sem
open Cert.KernelIdeal Cert.KernelIdeal.Gen Cert.KernelIdeal.Terms

/-- Every edge index lies in NumPy's index range of an axis of extent 50000. -/
def InRangeE (idx : IVec S800000 32) : Prop := ∀ e : S800000.Idx, -50000 ≤ (idx e).toInt ∧ (idx e).toInt < 50000
/-- Every scored-pair index lies in NumPy's index range of an axis of extent 50000. -/
def InRangeS (idx : IVec S200000 32) : Prop := ∀ e : S200000.Idx, -50000 ≤ (idx e).toInt ∧ (idx e).toInt < 50000

/-- The rank-0 shape has exactly one index. -/
instance subsingleton_scalar_idx : Subsingleton Cert.Pre_finite_inputs.S_.Idx := ⟨fun a b => funext fun d => d.elim0⟩

private theorem toInt_lo : (4294917296#32 : BitVec 32).toInt = -50000 := by decide
private theorem toInt_hi : (50000#32 : BitVec 32).toInt = 50000 := by decide
private theorem toInt_zero : (0#32 : BitVec 32).toInt = 0 := by decide
private theorem toInt_top : (49999#32 : BitVec 32).toInt = 49999 := by decide

/-- Two "all entries" conjuncts, one a lower and one an upper bound against broadcast scalars, read per entry. -/
private theorem range_of_all {s : Shape} {axes : List (Fin s.rank)} (idx : IVec s 32)
    (hb : Cert.Pre_finite_inputs.S_.BroadcastsInDim s (![] : Fin 0 → Fin s.rank))
    (hr : s.ReducesTo axes Cert.Pre_finite_inputs.S_) (hu : 0 < Cert.Pre_finite_inputs.S_.numel)
    (hge : Host.reduce IntOp.andi (cmpi .sge idx (broadcastInDim s ![] hb (constantI Cert.Pre_finite_inputs.S_ 32 4294917296#32)))
      (constantI Cert.Pre_finite_inputs.S_ 1 1#1) hr hu ix0 = 1#1)
    (hlt : Host.reduce IntOp.andi (cmpi .slt idx (broadcastInDim s ![] hb (constantI Cert.Pre_finite_inputs.S_ 32 50000#32)))
      (constantI Cert.Pre_finite_inputs.S_ 1 1#1) hr hu ix0 = 1#1)
    (e : s.Idx) : -50000 ≤ (idx e).toInt ∧ (idx e).toInt < 50000 := by
  have h1 := Host.reduce_andi_all _ _ hr hu ix0 hge e
  have h2 := Host.reduce_andi_all _ _ hr hu ix0 hlt e
  have h1' : (4294917296#32 : BitVec 32).toInt ≤ (idx e).toInt := IntOp.cmpi_sge.1 h1
  have h2' : (idx e).toInt < (50000#32 : BitVec 32).toInt := IntOp.cmpi_slt.1 h2
  rw [toInt_lo] at h1'
  rw [toInt_hi] at h2'
  exact ⟨h1', h2'⟩

/-- The precondition's three index conjuncts, read per entry. -/
theorem ranges_of_pre (m : (ℓ : Loc nD τ sig) → Buf (Elt Ideal) ℓ) (hpre : Cert.Pre_KernelIdeal m) (c : Dev nD) :
    InRangeE (m ((c.tc : Thread nD τ).loc main_arg1)) ∧ InRangeS (m ((c.tc : Thread nD τ).loc main_arg3))
      ∧ InRangeS (m ((c.tc : Thread nD τ).loc main_arg4)) := by
  have e := congrFun (hpre c) ValueIdx.ix0
  unfold Cert.Pre_finite_inputs.fn Cert.Pre_finite_inputs.fn_part1 Cert.Pre_finite_inputs.fn_part2 at e
  dsimp only at e
  obtain ⟨e, h4lt⟩ := IntOp.andi_eq_one.1 e
  obtain ⟨e, h4ge⟩ := IntOp.andi_eq_one.1 e
  obtain ⟨e, h3lt⟩ := IntOp.andi_eq_one.1 e
  obtain ⟨e, h3ge⟩ := IntOp.andi_eq_one.1 e
  obtain ⟨e, h1lt⟩ := IntOp.andi_eq_one.1 e
  obtain ⟨-, h1ge⟩ := IntOp.andi_eq_one.1 e
  exact ⟨range_of_all _ _ _ _ h1ge h1lt, range_of_all _ _ _ _ h3ge h3lt, range_of_all _ _ _ _ h4ge h4lt⟩

/-- One index word normalised against an axis of extent 50000: w + 50000 where w is negative, else w. -/
private def normWord (w : BitVec 32) : BitVec 32 :=
  Scalar.select (IntOp.cmpi .slt w 0#32) (IntOp.addi w 50000#32) w

/-- An index in [-50000, 50000) normalises into [0, 49999]: a negative one is shifted up by 50000 without wrapping,
    a non-negative one is kept. Both range tests then answer one. -/
private theorem normWord_inRange (w : BitVec 32) (h1 : -50000 ≤ w.toInt) (h2 : w.toInt < 50000) :
    IntOp.andi (IntOp.cmpi .sge (normWord w) 0#32) (IntOp.cmpi .sle (normWord w) 49999#32) = 1#1 := by
  rw [IntOp.andi_eq_one, IntOp.cmpi_sge, IntOp.cmpi_sle, toInt_zero, toInt_top]
  unfold normWord
  by_cases hneg : w.toInt < 0
  · have hc : IntOp.cmpi .slt w 0#32 = 1#1 := IntOp.cmpi_slt.2 (by rw [toInt_zero]; exact hneg)
    rw [hc, ValueIdx.select_one]
    have hs : (IntOp.addi w 50000#32).toInt = w.toInt + 50000 := by
      show (w + 50000#32).toInt = _
      rw [BitVec.toInt_add, toInt_hi, Int.bmod_def]
      split <;> omega
    rw [hs]
    omega
  · have hc : IntOp.cmpi .slt w 0#32 = 0#1 :=
      ValueIdx.eq_zero_of_ne_one (fun h => hneg (by have h' := IntOp.cmpi_slt.1 h; rwa [toInt_zero] at h'))
    rw [hc, ValueIdx.select_zero]
    omega

/-- A left fold by "and" from one over entries that are all one is one. -/
private theorem foldl_andi_ones {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a, show IntOp.andi 1#1 1#1 = 1#1 from by decide]
    exact foldl_andi_ones f hf l

/-- An "and"-reduction from one of an array of ones is one at every result index. -/
private theorem reduce_andi_ones {s t u : Shape} {axes : List (Fin s.rank)} (x : s.Idx → BitVec 1) (hx : ∀ i, x i = 1#1)
    (init : u.Idx → BitVec 1) (hinit : ∀ k, init k = 1#1) (h : s.ReducesTo axes t) (hu : 0 < u.numel) (j : t.Idx) :
    Host.reduce IntOp.andi x init h hu j = 1#1 := by
  rw [Host.reduce_eq_foldl, hinit]
  exact foldl_andi_ones x hx _

/-- Each entry of the column of normalised edge indices is the normalisation of one of the given indices. -/
private theorem normIdxE_at (idx : IVec S800000 32) (i : S800000x1.Idx) : ∃ e : S800000.Idx, normIdxE idx i = normWord (idx e) :=
  ⟨_, rfl⟩

private theorem normIdxS_at (idx : IVec S200000 32) (i : S200000x1.Idx) : ∃ e : S200000.Idx, normIdxS idx i = normWord (idx e) :=
  ⟨_, rfl⟩

/-- With every edge index in range the edge mask is one everywhere. -/
private theorem inRangeE_one (idx : IVec S800000 32) (hr : InRangeE idx) (e : S800000.Idx) : inRangeE idx e = 1#1 := by
  unfold inRangeE
  refine reduce_andi_ones _ (fun i => ?_) _ (fun _ => rfl) _ _ e
  obtain ⟨e', he'⟩ := normIdxE_at idx i
  show IntOp.andi (IntOp.cmpi .sge (normIdxE idx i) 0#32) (IntOp.cmpi .sle (normIdxE idx i) 49999#32) = 1#1
  rw [he']
  exact normWord_inRange (idx e') (hr e').1 (hr e').2

private theorem inRangeS_one (idx : IVec S200000 32) (hr : InRangeS idx) (e : S200000.Idx) : inRangeS idx e = 1#1 := by
  unfold inRangeS
  refine reduce_andi_ones _ (fun i => ?_) _ (fun _ => rfl) _ _ e
  obtain ⟨e', he'⟩ := normIdxS_at idx i
  show IntOp.andi (IntOp.cmpi .sge (normIdxS idx i) 0#32) (IntOp.cmpi .sle (normIdxS idx i) 49999#32) = 1#1
  rw [he']
  exact normWord_inRange (idx e') (hr e').1 (hr e').2

/-- With every index in range nothing is filled: the take is the gather at the normalised indices. -/
theorem takeFillE_eq (h : FVec Ideal S50000x128 .f32) (idx : IVec S800000 32) (hr : InRangeE idx) :
    takeFillE h idx = Host.gather gather_S50000x128_S800000x1_S800000x128_1_0_n_n_0_1_1128 h (normIdxE idx) := by
  funext i
  unfold takeFillE
  show Scalar.select (inRangeE idx _) _ _ = _
  rw [inRangeE_one idx hr, ValueIdx.select_one]

/-- The same for the scored pairs. -/
theorem takeFillS_eq (h : FVec Ideal S50000x128 .f32) (idx : IVec S200000 32) (hr : InRangeS idx) :
    takeFillS h idx = Host.gather gather_S50000x128_S200000x1_S200000x128_1_0_n_n_0_1_1128 h (normIdxS idx) := by
  funext i
  unfold takeFillS
  show Scalar.select (inRangeS idx _) _ _ = _
  rw [inRangeS_one idx hr, ValueIdx.select_one]

end Cert.KernelIdeal.Decode

end
-- ==== Proof.Bridge.lean ====
/- The kernel's dense stages against the reference's operations, index by index: each stage of the kernel is the
   matching stage of the reference, as whole arrays. -/
import proofs.«400488_j33122787786914_2_alg».proof.Proof.Gen.ReferenceIdeal.Read
import proofs.«400488_j33122787786914_2_alg».proof.Proof.KTerms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.KernelIdeal Cert.KernelIdeal.Gen Cert.KernelIdeal.Terms Cert.Gcn
open Cert.ReferenceIdeal.Read

/-! ## The inverse root degree: the reference computes it four times, each time by the kernel's own operations -/

/-- The source-side inverse root degree, as the reference first computes it. -/
private theorem degInv_eq_v9 (x : IVec S800000 32) : degInv x = val_main_v9 (F := Ideal) x := by
  unfold degInv val_main_v9 val_main_v7 val_main_call0_v1 val_main_call0_v0 val_main_cst_2 val_main_v3 val_main_v1
    val_main_cst_0 val_main_v2 val_main_v0 val_main_cst
  rfl

/-- The destination-side inverse root degree, as the reference first computes it. -/
private theorem degInv_eq_v23 (x : IVec S800000 32) : degInv x = val_main_v23 (F := Ideal) x := by
  unfold degInv val_main_v23 val_main_v8 val_main_call1_v1 val_main_call1_v0 val_main_cst_3 val_main_v6 val_main_v4
    val_main_cst_1 val_main_v5 val_main_v0 val_main_cst
  rfl

/-- The source-side inverse root degree, as the reference computes it again for the second layer. -/
private theorem degInv_eq_v41 (x : IVec S800000 32) : degInv x = val_main_v41 (F := Ideal) x := by
  unfold degInv val_main_v41 val_main_v39 val_main_call3_v1 val_main_call3_v0 val_main_cst_9 val_main_v35 val_main_v33
    val_main_cst_7 val_main_v34 val_main_v32 val_main_cst_6
  rfl

/-- The destination-side inverse root degree, as the reference computes it again for the second layer. -/
private theorem degInv_eq_v55 (x : IVec S800000 32) : degInv x = val_main_v55 (F := Ideal) x := by
  unfold degInv val_main_v55 val_main_v40 val_main_call4_v1 val_main_call4_v0 val_main_cst_10 val_main_v38 val_main_v36
    val_main_cst_8 val_main_v37 val_main_v32 val_main_cst_6
  rfl

/-! ## The kernel's layouts at an index -/

/-- The degree column at row `r` is the degree vector at `r`. -/
private theorem degCol_apply (x : IVec S800000 32) (r : Fin 50000) :
    degCol x (ix2 r (0 : Fin 1)) = degInv x (ix1 r) := by
  unfold degCol
  generalize degInv x = y
  refine shapeCast_apply y shapeCasts_S50000_S50000x1 (ix2 r (0 : Fin 1)) (ix1 r) ?_
  rw [Shape.rowMajor_val_one, Shape.rowMajor_val_two]
  show r.val = r.val * 1 + 0
  omega

/-- The bias row at column `q` is the bias vector at `q`. -/
private theorem biasRow_apply (b : FVec Ideal S128 .f32) (q : Fin 128) :
    biasRow b (ix2 (0 : Fin 1) q) = b (ix1 q) := by
  unfold biasRow
  exact shapeCast_a_1a_apply b shapeCasts_S128_S1x128 (0 : Fin 1) q

/-! ## The reference's composed index maps, in coordinates -/

/-- A column broadcast along the rows reads its vector at the row. -/
private theorem col_idx (i : S50000x128.Idx) : idx_main_v10 (idx_main_v11 i) = ix1 (rowOf i) :=
  funext fun a => Fin.ext (by match a with | ⟨0, _⟩ => rfl)

/-- A row broadcast down the rows reads its vector at the column. -/
private theorem row_idx (i : S50000x128.Idx) : idx_main_v28 (idx_main_v29 i) = ix1 (colOf i) :=
  funext fun a => Fin.ext (by match a with | ⟨0, _⟩ => rfl)

/-- The product's left operand is read along row `rowOf i`. -/
private theorem lidx_eq (i : S50000x128.Idx) (k : Fin 128) : lidx_main_v27 i k = ix2 (rowOf i) k :=
  funext fun a => Fin.ext (by match a with | ⟨0, _⟩ => rfl | ⟨1, _⟩ => rfl)

/-- The product's right operand is read down column `colOf i`. -/
private theorem ridx_eq (i : S50000x128.Idx) (k : Fin 128) : ridx_main_v27 i k = ix2 k (colOf i) :=
  funext fun a => Fin.ext (by match a with | ⟨0, _⟩ => rfl | ⟨1, _⟩ => rfl)

/-- Along a row the row does not change. -/
private theorem rowOf_ix2 (r : Fin 50000) (k : Fin 128) : rowOf (ix2 r k) = r := rfl

/-- The same three maps for the other columns, rows and products of the reference. -/
private theorem col_idx25 (i : S50000x128.Idx) : idx_main_v24 (idx_main_v25 i) = ix1 (rowOf i) :=
  funext fun a => Fin.ext (by match a with | ⟨0, _⟩ => rfl)
private theorem col_idx43 (i : S50000x128.Idx) : idx_main_v42 (idx_main_v43 i) = ix1 (rowOf i) :=
  funext fun a => Fin.ext (by match a with | ⟨0, _⟩ => rfl)
private theorem col_idx57 (i : S50000x128.Idx) : idx_main_v56 (idx_main_v57 i) = ix1 (rowOf i) :=
  funext fun a => Fin.ext (by match a with | ⟨0, _⟩ => rfl)
private theorem row_idx61 (i : S50000x128.Idx) : idx_main_v60 (idx_main_v61 i) = ix1 (colOf i) :=
  funext fun a => Fin.ext (by match a with | ⟨0, _⟩ => rfl)
private theorem lidx59_eq (i : S50000x128.Idx) (k : Fin 128) : lidx_main_v59 i k = ix2 (rowOf i) k :=
  funext fun a => Fin.ext (by match a with | ⟨0, _⟩ => rfl | ⟨1, _⟩ => rfl)
private theorem ridx59_eq (i : S50000x128.Idx) (k : Fin 128) : ridx_main_v59 i k = ix2 k (colOf i) :=
  funext fun a => Fin.ext (by match a with | ⟨0, _⟩ => rfl | ⟨1, _⟩ => rfl)

/-! ## The three stages -/

/-- The word of 1.0 is the number one. -/
private theorem ofBits_one_f32 : Ideal.ofBits .f32 0x3F800000#32 = 1 := by
  simp [Ideal.ofBits, Ideal.ieee]
  rw [← EReal.coe_mul, ← EReal.coe_one]
  exact congrArg _ (by norm_num)

/-- The column of ones reads one everywhere. -/
private theorem onesCol_apply (j : S50000x1.Idx) : onesCol j = 1 := by
  unfold onesCol
  rw [broadcastInDim_apply _ bcast_S_S50000x1 _ j ix0 (fun a => a.elim0), constant_apply, ofBits_one_f32]

/-- The table scaled by the source-side degrees is the reference's first product. -/
theorem stage0_eq (x0 : FVec Ideal S50000x128 .f32) (x1 : IVec S800000 32) :
    stage0 x0 x1 = val_main_v12 (F := Ideal) x0 x1 := by
  funext i
  rw [val_main_v12_apply, val_main_v11_apply, val_main_v10_apply, col_idx, ← degInv_eq_v9, ← degCol_apply]
  rfl

/-- The first dense stage of the reference's aggregate is the reference's first layer, scaled for the next gather. -/
theorem layer1_eq (x0 : FVec Ideal S50000x128 .f32) (x1 x2 : IVec S800000 32) (x5 : FVec Ideal S128x128 .f32) (x6 : FVec Ideal S128 .f32) :
    layer (val_main_v22 (F := Ideal) x0 x1 x2) (degCol x2) x5 (biasRow x6) (degCol x1)
      = val_main_v44 (F := Ideal) x0 x1 x2 x5 x6 := by
  funext i
  rw [val_main_v44_apply, val_main_v31_apply, val_main_v30_apply, val_main_v27_apply, val_main_v29_apply, val_main_v28_apply,
    val_main_call2_v0_apply, val_main_call2_cst_apply, val_main_v43_apply, val_main_v42_apply, col_idx43, row_idx,
    ← degInv_eq_v41, ← degCol_apply, ← biasRow_apply x6]
  have hterm : ∀ k : Fin 128, val_main_v26 (F := Ideal) x0 x1 x2 (lidx_main_v27 i k) * x5 (ridx_main_v27 i k)
      = (val_main_v22 (F := Ideal) x0 x1 x2 (ix2 (rowOf i) k) * degCol x2 (ix2 (rowOf i) (0 : Fin 1))) * x5 (ix2 k (colOf i)) := by
    intro k
    rw [lidx_eq, ridx_eq, val_main_v26_apply, val_main_v25_apply, val_main_v24_apply, col_idx25, rowOf_ix2, ← degInv_eq_v23,
      ← degCol_apply]
    rfl
  rw [Finset.sum_congr rfl (fun k _ => hterm k)]
  generalize val_main_v22 (F := Ideal) x0 x1 x2 = A
  rfl

/-- The second dense stage of the reference's aggregate, scaled by ones, is the reference's second layer. -/
theorem layer2_eq (x0 : FVec Ideal S50000x128 .f32) (x1 x2 : IVec S800000 32) (x5 : FVec Ideal S128x128 .f32) (x6 : FVec Ideal S128 .f32)
    (x7 : FVec Ideal S128x128 .f32) (x8 : FVec Ideal S128 .f32) :
    layer (val_main_v54 (F := Ideal) x0 x1 x2 x5 x6) (degCol x2) x7 (biasRow x8) onesCol
      = val_main_v63 (F := Ideal) x0 x1 x2 x5 x6 x7 x8 := by
  funext i
  rw [val_main_v63_apply, val_main_v62_apply, val_main_v59_apply, val_main_v61_apply, val_main_v60_apply,
    val_main_call5_v0_apply, val_main_call5_cst_apply, row_idx61, ← biasRow_apply x8]
  have hterm : ∀ k : Fin 128, val_main_v58 (F := Ideal) x0 x1 x2 x5 x6 (lidx_main_v59 i k) * x7 (ridx_main_v59 i k)
      = (val_main_v54 (F := Ideal) x0 x1 x2 x5 x6 (ix2 (rowOf i) k) * degCol x2 (ix2 (rowOf i) (0 : Fin 1)))
          * x7 (ix2 k (colOf i)) := by
    intro k
    rw [lidx59_eq, ridx59_eq, val_main_v58_apply, val_main_v57_apply, val_main_v56_apply, col_idx57, rowOf_ix2,
      ← degInv_eq_v55, ← degCol_apply]
    rfl
  rw [Finset.sum_congr rfl (fun k _ => hterm k)]
  generalize val_main_v54 (F := Ideal) x0 x1 x2 x5 x6 = A
  refine Eq.trans ?_ (mul_one (M := EReal) _)
  rw [← onesCol_apply (ix2 (rowOf i) (0 : Fin 1))]
  rfl

end Cert.Bridge

end
-- ==== Proof.Assemble.lean ====
/- The kernel's result as a function of its arguments is the reference's, when every index that feeds a gather is
   in range: the filled takes are plain gathers, each dense stage of the kernel is the matching stage of the
   reference, and the gathers, scatter-adds and the final sum between them are the same operations on both sides. -/
import proofs.«400488_j33122787786914_2_alg».proof.Proof.Gen.ReferenceIdeal.Read
import proofs.«400488_j33122787786914_2_alg».proof.Proof.KTerms
import proofs.«400488_j33122787786914_2_alg».proof.Proof.Decode
import proofs.«400488_j33122787786914_2_alg».proof.Proof.Bridge

set_option maxRecDepth 16384

noncomputable section

namespace Cert.Assemble

open Idealize.ShloMosaic
open Cert.KernelIdeal Cert.KernelIdeal.Gen Cert.KernelIdeal.Terms Cert.KernelIdeal.Decode Cert.Gcn Cert.Bridge
open Cert.ReferenceIdeal.Read

variable (x0 : FVec Ideal S50000x128 .f32) (x1 x2 : IVec S800000 32) (x3 x4 : IVec S200000 32)
  (x5 : FVec Ideal S128x128 .f32) (x6 : FVec Ideal S128 .f32) (x7 : FVec Ideal S128x128 .f32) (x8 : FVec Ideal S128 .f32)

/-- The first aggregation: gather the scaled table at the sources, sum into the destinations. -/
theorem agg1_eq (h1 : InRangeE x1) :
    segSum (takeFillE (stage0 x0 x1) x1) x2 = val_main_v22 (F := Ideal) x0 x1 x2 := by
  rw [takeFillE_eq _ _ h1, stage0_eq]
  rfl

/-- After the first layer the kernel holds the reference's first layer already scaled for the next gather. -/
theorem stage1_eq (h1 : InRangeE x1) :
    stage1 x0 x1 x2 x5 x6 = val_main_v44 (F := Ideal) x0 x1 x2 x5 x6 := by
  unfold stage1
  rw [agg1_eq x0 x1 x2 h1, layer1_eq]

/-- The second aggregation. -/
theorem agg2_eq (h1 : InRangeE x1) :
    segSum (takeFillE (stage1 x0 x1 x2 x5 x6) x1) x2 = val_main_v54 (F := Ideal) x0 x1 x2 x5 x6 := by
  rw [takeFillE_eq _ _ h1, stage1_eq x0 x1 x2 x5 x6 h1]
  rfl

/-- After the second layer the kernel holds the reference's second layer. -/
theorem stage2_eq (h1 : InRangeE x1) :
    stage2 x0 x1 x2 x5 x6 x7 x8 = val_main_v63 (F := Ideal) x0 x1 x2 x5 x6 x7 x8 := by
  unfold stage2
  rw [agg2_eq x0 x1 x2 x5 x6 h1, layer2_eq]

/-- The scores: the kernel's result is the reference's. -/
theorem kernelValue_eq (h1 : InRangeE x1) (h3 : InRangeS x3) (h4 : InRangeS x4) :
    kernelValue x0 x1 x2 x3 x4 x5 x6 x7 x8 = val_main_v80 (F := Ideal) x0 x1 x2 x3 x4 x5 x6 x7 x8 := by
  unfold kernelValue edgeScore
  rw [stage2_eq x0 x1 x2 x5 x6 x7 x8 h1, takeFillS_eq _ _ h3, takeFillS_eq _ _ h4]
  rfl

end Cert.Assemble

end
-- ==== Proof.lean ====
/-
  The certificate of a two-layer graph-convolution ranking model: a Pallas pipeline of three kernel regions — a
  row-scaling kernel and two fused dense stages (row scale, matrix product, bias, clamp at zero, row scale) — among
  host gathers and scatter-adds, against the plain jnp reference, over the extended reals.

  The mathematics. With deg_out and deg_in the clipped degree counts and s_out = deg_out^(-1/2), s_in = deg_in^(-1/2),
  the reference computes, twice,   h  ↦  relu( (S (h * s_out)[src] summed into dst) * s_in · W + b ),
  and then the per-pair dot products of the final rows. The kernel computes the same quantities in another arrangement:
  it scales by s_out once up front, and folds the second layer's s_out into the first dense stage's epilogue
  (relu(y) * s_out, exactly the reference's h * s_out for the next layer); its last stage scales by a column of ones.
  Format changes are the identity at the extended reals and a matrix product is the same finite sum on both sides, so
  each kernel stage IS the matching reference stage, entry by entry (Proof/Bridge.lean).
  The one place the two programs differ is the gather: the kernel's take fills a row with a constant where an index is
  out of range, the reference's indexing clamps. The precondition therefore asks every index that feeds a gather to lie
  in [-50000, 50000) — where both normalise a negative index alike — and then nothing is filled (Proof/Decode.lean).
  The frames of the two kernel programs are the generated ones; the reference's is its generated run; the kernel's
  run with its result named is Proof/KRun.lean, and the result is read back to the arguments in Proof/KFold.lean.
-/
import proofs.«400488_j33122787786914_2_alg».proof.Defs
import proofs.«400488_j33122787786914_2_alg».proof.Proof.Gen.Kernel
import proofs.«400488_j33122787786914_2_alg».proof.Proof.Gen.Kernel.Frame
import proofs.«400488_j33122787786914_2_alg».proof.Proof.Gen.KernelIdeal
import proofs.«400488_j33122787786914_2_alg».proof.Proof.Gen.KernelIdeal.Frame
import proofs.«400488_j33122787786914_2_alg».proof.Proof.Gen.ReferenceIdeal
import proofs.«400488_j33122787786914_2_alg».proof.Proof.Gen.ReferenceIdeal.Run
import proofs.«400488_j33122787786914_2_alg».proof.Proof.Gen.ReferenceIdeal.Read
import proofs.«400488_j33122787786914_2_alg».proof.Proof.Gen.Pre_finite_inputs
import proofs.«400488_j33122787786914_2_alg».proof.Proof.KRun
import proofs.«400488_j33122787786914_2_alg».proof.Proof.KFold
import proofs.«400488_j33122787786914_2_alg».proof.Proof.Decode
import proofs.«400488_j33122787786914_2_alg».proof.Proof.Assemble
import Idealize.ShloMosaic.Adequacy
import Idealize.ShloMosaic.Init

noncomputable section

namespace Cert.Proof

open Idealize.ShloMosaic Idealize.ShloMosaic.TcCoe Idealize.SL.Sem

/-- The word-level kernel program runs and keeps its arguments: its generated frame. -/
theorem frame_kernel : Cert.frame_Kernel := fun m ρ _ => Cert.Kernel.Gen.frame m ρ

/-- The idealized kernel program runs and keeps its arguments: its generated frame. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, with every gather index in range, both programs end with the same scores:
    the kernel's result read back to its arguments is `kernelValue` of them, which is the reference's last stage. -/
theorem algebraic : Cert.algebraic_KernelIdeal_ReferenceIdeal := by
  intro m ρ m' ρ' hpre hagree
  refine ⟨fun c => Cert.KernelIdeal.Terms.kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.value m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨h1, h3, h4⟩ := Cert.KernelIdeal.Decode.ranges_of_pre m hpre c
    obtain ⟨a0, a1, a2, a3, a4, a5, a6, a7, a8⟩ := hagree c
    rw [Cert.ReferenceIdeal.Read.val_main_v80_eq, a0, a1, a2, a3, a4, a5, a6, a7, a8]
    exact (Cert.Assemble.kernelValue_eq _ _ _ _ _ _ _ _ _ h1 h3 h4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
